-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel

variable [Facts]

def fn {F : FTy → Type} [FloatOps F] (main_arg0 : FVec F S8192 .f32) (main_arg1 : IVec S8192 32) (main_arg2 : IVec S8192 32) : IVec S_ 1 :=
  let main_v0 : FVec F S8192 .f32 := Host.absf main_arg0
  let main_cst : FVec F S_ .f32 := constant S_ .f32 0x7F800000#32
  let main_v1 : FVec F S8192 .f32 := broadcastInDim S8192 ![] bcast_S_S8192 main_cst
  let main_v2 : IVec S8192 1 := cmpf .olt main_v0 main_v1
  let main_c : IVec S_ 1 := constantI S_ 1 1#1
  let main_v3 : IVec S_ 1 := (fun x v => Host.reduce IntOp.andi x v reducesTo_S8192_S_d0 h_S_) main_v2 main_c
  let main_c_0 : IVec S_ 32 := constantI S_ 32 0#32
  let main_v4 : IVec S8192 32 := broadcastInDim S8192 ![] bcast_S_S8192 main_c_0
  let main_v5 : IVec S8192 1 := cmpi .sge main_arg2 main_v4
  let main_c_1 : IVec S_ 32 := constantI S_ 32 32#32
  let main_v6 : IVec S8192 32 := broadcastInDim S8192 ![] bcast_S_S8192 main_c_1
  let main_v7 : IVec S8192 1 := cmpi .slt main_arg2 main_v6
  let main_v8 : IVec S8192 1 := andi main_v5 main_v7
  let main_c_2 : IVec S_ 1 := constantI S_ 1 1#1
  let main_v9 : IVec S_ 1 := (fun x v => Host.reduce IntOp.andi x v reducesTo_S8192_S_d0 h_S_) main_v8 main_c_2
  let main_v10 : IVec S_ 1 := andi main_v3 main_v9
  main_v10
-- ==== Kernel.lean ====
abbrev S8192 : Shape := ⟨1, ![8192]⟩
abbrev S_ : Shape := ⟨0, ![]⟩
abbrev S32 : Shape := ⟨1, ![32]⟩
abbrev S8192x1 : Shape := ⟨2, ![8192, 1]⟩
abbrev S1x8192 : Shape := ⟨2, ![1, 8192]⟩
abbrev S64x1 : Shape := ⟨2, ![64, 1]⟩
abbrev S1024x1 : Shape := ⟨2, ![1024, 1]⟩
abbrev S1x2048 : Shape := ⟨2, ![1, 2048]⟩
abbrev S8x1 : Shape := ⟨2, ![8, 1]⟩
abbrev S1024x2048 : Shape := ⟨2, ![1024, 2048]⟩
abbrev S1024 : Shape := ⟨1, ![1024]⟩
abbrev S1 : Shape := ⟨1, ![1]⟩
abbrev S1x1 : Shape := ⟨2, ![1, 1]⟩

abbrev nBuf : Space → Nat
  | .hbm => 50
  | .vmem => 11
  | .smem => 0
  | _ => 0

abbrev bufTy : (tb : Table) → Fin (tcTables nBuf tb) → BufTy
  | .hbm, ⟨0, _⟩ => ⟨S8192, .f32⟩
  | .hbm, ⟨1, _⟩ => ⟨S8192, .i32⟩
  | .hbm, ⟨2, _⟩ => ⟨S8192, .i32⟩
  | .hbm, ⟨3, _⟩ => ⟨S_, .i32⟩
  | .hbm, ⟨4, _⟩ => ⟨S8192, .i32⟩
  | .hbm, ⟨5, _⟩ => ⟨S8192, .i1⟩
  | .hbm, ⟨6, _⟩ => ⟨S8192, .i32⟩
  | .hbm, ⟨7, _⟩ => ⟨S_, .i32⟩
  | .hbm, ⟨8, _⟩ => ⟨S8192, .i32⟩
  | .hbm, ⟨9, _⟩ => ⟨S8192, .i1⟩
  | .hbm, ⟨10, _⟩ => ⟨S8192, .i32⟩
  | .hbm, ⟨11, _⟩ => ⟨S_, .i32⟩
  | .hbm, ⟨12, _⟩ => ⟨S32, .i32⟩
  | .hbm, ⟨13, _⟩ => ⟨S8192x1, .i32⟩
  | .hbm, ⟨14, _⟩ => ⟨S32, .i32⟩
  | .hbm, ⟨15, _⟩ => ⟨S_, .i32⟩
  | .hbm, ⟨16, _⟩ => ⟨S32, .i32⟩
  | .hbm, ⟨17, _⟩ => ⟨S8192x1, .i32⟩
  | .hbm, ⟨18, _⟩ => ⟨S32, .i32⟩
  | .hbm, ⟨19, _⟩ => ⟨S32, .i32⟩
  | .hbm, ⟨20, _⟩ => ⟨S_, .i32⟩
  | .hbm, ⟨21, _⟩ => ⟨S_, .i32⟩
  | .hbm, ⟨22, _⟩ => ⟨S_, .f32⟩
  | .hbm, ⟨23, _⟩ => ⟨S_, .i32⟩
  | .hbm, ⟨24, _⟩ => ⟨S8192, .i32⟩
  | .hbm, ⟨25, _⟩ => ⟨S8192, .i1⟩
  | .hbm, ⟨26, _⟩ => ⟨S_, .i32⟩
  | .hbm, ⟨27, _⟩ => ⟨S8192, .i32⟩
  | .hbm, ⟨28, _⟩ => ⟨S8192, .i32⟩
  | .hbm, ⟨29, _⟩ => ⟨S8192x1, .i32⟩
  | .hbm, ⟨30, _⟩ => ⟨S_, .i32⟩
  | .hbm, ⟨31, _⟩ => ⟨S8192, .i32⟩
  | .hbm, ⟨32, _⟩ => ⟨S8192, .i1⟩
  | .hbm, ⟨33, _⟩ => ⟨S_, .i32⟩
  | .hbm, ⟨34, _⟩ => ⟨S8192, .i32⟩
  | .hbm, ⟨35, _⟩ => ⟨S8192, .i32⟩
  | .hbm, ⟨36, _⟩ => ⟨S1x8192, .i32⟩
  | .hbm, ⟨37, _⟩ => ⟨S_, .f32⟩
  | .hbm, ⟨38, _⟩ => ⟨S8192, .f32⟩
  | .hbm, ⟨39, _⟩ => ⟨S8192, .f32⟩
  | .hbm, ⟨40, _⟩ => ⟨S8192x1, .f32⟩
  | .hbm, ⟨41, _⟩ => ⟨S1x8192, .f32⟩
  | .hbm, ⟨42, _⟩ => ⟨S64x1, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .i1⟩
  | .hbm, ⟨47, _⟩ => ⟨S_, .f32⟩
  | .hbm, ⟨48, _⟩ => ⟨S_, .f32⟩
  | .hbm, ⟨49, _⟩ => ⟨S_, .f32⟩
  | .local _ .vmem, ⟨0, _⟩ => ⟨S1024x1, .i32⟩
  | .local _ .vmem, ⟨1, _⟩ => ⟨S1024x1, .i32⟩
  | .local _ .vmem, ⟨2, _⟩ => ⟨S1x2048, .i32⟩
  | .local _ .vmem, ⟨3, _⟩ => ⟨S1x2048, .i32⟩
  | .local _ .vmem, ⟨4, _⟩ => ⟨S1024x1, .f32⟩
  | .local _ .vmem, ⟨5, _⟩ => ⟨S1024x1, .f32⟩
  | .local _ .vmem, ⟨6, _⟩ => ⟨S1x2048, .f32⟩
  | .local _ .vmem, ⟨7, _⟩ => ⟨S1x2048, .f32⟩
  | .local _ .vmem, ⟨8, _⟩ => ⟨S8x1, .f32⟩
  | .local _ .vmem, ⟨9, _⟩ => ⟨S8x1, .f32⟩
  | .local _ .vmem, ⟨10, _⟩ => ⟨S1024x1, .f32⟩
  | _, _ => ⟨S8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_3 : Ref sig .tc := ⟨.hbm, 20, rfl⟩
abbrev main_v13 : Ref sig .tc := ⟨.hbm, 21, rfl⟩
abbrev main_v14 : Ref sig .tc := ⟨.hbm, 22, rfl⟩
abbrev main_c_4 : Ref sig .tc := ⟨.hbm, 23, rfl⟩
abbrev main_v15 : Ref sig .tc := ⟨.hbm, 24, rfl⟩
abbrev main_v16 : Ref sig .tc := ⟨.hbm, 25, rfl⟩
abbrev main_c_5 : Ref sig .tc := ⟨.hbm, 26, rfl⟩
abbrev main_call0_v0 : Ref sig .tc := ⟨.hbm, 27, rfl⟩
abbrev main_v17 : Ref sig .tc := ⟨.hbm, 28, rfl⟩
abbrev main_v18 : Ref sig .tc := ⟨.hbm, 29, rfl⟩
abbrev main_c_6 : Ref sig .tc := ⟨.hbm, 30, rfl⟩
abbrev main_v19 : Ref sig .tc := ⟨.hbm, 31, rfl⟩
abbrev main_v20 : Ref sig .tc := ⟨.hbm, 32, rfl⟩
abbrev main_c_7 : Ref sig .tc := ⟨.hbm, 33, rfl⟩
abbrev main_call1_v0 : Ref sig .tc := ⟨.hbm, 34, rfl⟩
abbrev main_v21 : Ref sig .tc := ⟨.hbm, 35, rfl⟩
abbrev main_v22 : Ref sig .tc := ⟨.hbm, 36, rfl⟩
abbrev main_cst : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_8 : Ref sig .tc := ⟨.hbm, 43, rfl⟩
abbrev main_v28 : Ref sig .tc := ⟨.hbm, 44, rfl⟩
abbrev main_cst_9 : Ref sig .tc := ⟨.hbm, 45, rfl⟩
abbrev main_v29 : Ref sig .tc := ⟨.hbm, 46, rfl⟩
abbrev main_v30 : Ref sig .tc := ⟨.hbm, 47, rfl⟩
abbrev main_cst_10 : Ref sig .tc := ⟨.hbm, 48, rfl⟩
abbrev main_v31 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v28 : BitVec 1 := Scalar.cmpi .eq arg1 c3_i32
  let v29 : BitVec 32 := Scalar.extui v28
  let c0_i32_14 : BitVec 32 := 0#32
  let v30 : BitVec 1 := Scalar.cmpi .ne v29 c0_i32_14
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S8x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bcast_S_S8192 : S_.BroadcastsInDim S8192 (![] : Fin 0 → Fin S8192.rank)
  natLt_1_32 : 1 < 32
  bcast_S_S32 : S_.BroadcastsInDim S32 (![] : Fin 0 → Fin S32.rank)
  bcast_S8192_S8192x1_0 : S8192.BroadcastsInDim S8192x1 (![0] : Fin 1 → Fin S8192x1.rank)
  reducesTo_S32_S_d0 : S32.ReducesTo [0] S_
  h_S_ : 0 < S_.numel
  shapeCasts_S8192_S8192x1 : S8192.ShapeCasts S8192x1
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1024x1_S1024x2048 : S1024x1.Broadcasts S1024x2048
  broadcasts_S1x2048_S1024x2048 : S1x2048.Broadcasts S1024x2048
  reduces_S1024x2048_S1024 : S1024x2048.Reduces [1] S1024
  shapeCasts_S1024_S1024x1 : S1024.ShapeCasts S1024x1
  reduces_S1024x1_S1 : S1024x1.Reduces [0] S1
  shapeCasts_S1_S1x1 : S1.ShapeCasts S1x1
  iota_S8x1_d0_w32 : S8x1.Iotas .tc 32 [0]
  shapeCasts_S1x1_S1x1 : S1x1.ShapeCasts S1x1
  broadcasts_S1x1_S8x1 : S1x1.Broadcasts S8x1
  inb_S8x1_S8x1_0_0 : ∀ a, (![0, 0] : Fin 2 → Nat) a + S8x1.size a ≤ S8x1.size a
  h_S8x1 : 0 < S8x1.numel
  reducesTo_S64x1_S_d0_1 : S64x1.ReducesTo [0, 1] S_
  scatter_S32_S8192x1_S8192_n_0_0_1_wf : ScatterDims.WF S32 S8192x1 S8192 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S8192x1.size a
  hwx0_0 : ∀ i : grid0.Coords, EltTy.bits .i32 = 32 ∨ (Rect.block (s := S8192x1) S1024x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x8192.size a
  hwx0_1 : ∀ i : grid0.Coords, EltTy.bits .i32 = 32 ∨ (Rect.block (s := S1x8192) S1x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x8192.size a
  hwx0_3 : ∀ i : grid0.Coords, EltTy.bits .f32 = 32 ∨ (Rect.block (s := S1x8192) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x1.size a ≤ S64x1.size a
  hwx0_4 : ∀ i : grid0.Coords, EltTy.bits .f32 = 32 ∨ (Rect.block (s := S64x1) S8x1.size (cc0_transform_4 i) (hinb0_4 i)).WholeWords (EltTy.packing .f32)

variable [Facts₀]

def scatter_S32_S8192x1_S8192_n_0_0_1 : ScatterDims S32 S8192x1 S8192 where
  updateWindowDims := []
  insertedWindowDims := [0]
  scatterDimsToOperandDims := [0]
  indexVectorDim := 1
  wf := scatter_S32_S8192x1_S8192_n_0_0_1_wf

abbrev win0_0 : Pipeline.Window sig grid0 :=
  Pipeline.Window.ofSpec (Memref.whole main_v18) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S1x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v26) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v27) S8x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S8192, .f32⟩
  | .hbm, ⟨1, _⟩ => ⟨S8192, .i32⟩
  | .hbm, ⟨2, _⟩ => ⟨S8192, .i32⟩
  | .hbm, ⟨3, _⟩ => ⟨S8192x1, .i32⟩
  | .hbm, ⟨4, _⟩ => ⟨S1x8192, .i32⟩
  | .hbm, ⟨5, _⟩ => ⟨S8192x8192, .i32⟩
  | .hbm, ⟨6, _⟩ => ⟨S8192x8192, .i32⟩
  | .hbm, ⟨7, _⟩ => ⟨S8192x8192, .i1⟩
  | .hbm, ⟨8, _⟩ => ⟨S_, .i32⟩
  | .hbm, ⟨9, _⟩ => ⟨S8192, .i32⟩
  | .hbm, ⟨10, _⟩ => ⟨S8192, .i1⟩
  | .hbm, ⟨11, _⟩ => ⟨S8192x1, .i1⟩
  | .hbm, ⟨12, _⟩ => ⟨S8192x8192, .i1⟩
  | .hbm, ⟨13, _⟩ => ⟨S8192x8192, .i1⟩
  | .hbm, ⟨14, _⟩ => ⟨S_, .i32⟩
  | .hbm, ⟨15, _⟩ => ⟨S8192, .i32⟩
  | .hbm, ⟨16, _⟩ => ⟨S8192, .i1⟩
  | .hbm, ⟨17, _⟩ => ⟨S1x8192, .i1⟩
  | .hbm, ⟨18, _⟩ => ⟨S8192x8192, .i1⟩
  | .hbm, ⟨19, _⟩ => ⟨S8192x8192, .i1⟩
  | .hbm, ⟨20, _⟩ => ⟨S8192x1, .f32⟩
  | .hbm, ⟨21, _⟩ => ⟨S1x8192, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S_, .f32⟩
  | .hbm, ⟨29, _⟩ => ⟨S8192x8192, .f32⟩
  | .hbm, ⟨30, _⟩ => ⟨S8192x8192, .f32⟩
  | .hbm, ⟨31, _⟩ => ⟨S_, .f32⟩
  | .hbm, ⟨32, _⟩ => ⟨S_, .f32⟩
  | .hbm, ⟨33, _⟩ => ⟨S8192x8192, .f32⟩
  | .hbm, ⟨34, _⟩ => ⟨S8192x8192, .f32⟩
  | .hbm, ⟨35, _⟩ => ⟨S_, .f32⟩
  | .hbm, ⟨36, _⟩ => ⟨S_, .f32⟩
  | .hbm, ⟨37, _⟩ => ⟨S8192x8192, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i1⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | _, _ => ⟨S8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_c_4 : Ref sig .tc := ⟨.hbm, 38, rfl⟩
abbrev main_v27 : Ref sig .tc := ⟨.hbm, 39, rfl⟩
abbrev main_c_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192 : S_.BroadcastsInDim S8192 (![] : Fin 0 → Fin S8192.rank)
  bcast_S_S8192x8192 : S_.BroadcastsInDim S8192x8192 (![] : Fin 0 → Fin S8192x8192.rank)
  reducesTo_S8192x8192_S_d0_1 : S8192x8192.ReducesTo [0, 1] S_
  h_S_ : 0 < S_.numel
  natLt_1_32 : 1 < 32

variable [Facts₀]

class Facts : Prop extends Facts₀ where

variable [Facts]
-- ==== Proof.Spec.lean ====
/-
  The pairwise ranking loss as one function of the three argument arrays, and the kernel's
  intermediate quantities over the arrays its grid reads.

  For scores `s`, labels `l` and property ids `p` of length 8192, a pair (i, j) is valid when
  `p i = p j`, `l i = 1` and `l j = 0`. The loss is the sum over valid pairs of the hinge
  `max (1 - (s i - s j)) 0`, divided by the number of valid pairs, and zero when there is none.
  The number of valid pairs is counted in 32-bit integers (a sum in the ring of 32-bit words)
  and read as a signed integer for the division.

  The kernel works on four re-laid arrays: a column of row codes `RC` and a row of column
  codes `CC` (the pair is taken when the two codes are equal), a column of shifted scores
  `RS` and a row of scores `CS` (the hinge is `max (CS j - RS i) 0`). A row tile of 1024 rows
  adds its rows' sums over the four column blocks of 2048 columns; the output array has one
  block of eight entries per row tile, the tile's sum first and zeros after it.
-/
import Mathlib.Data.BitVec
import Mathlib.Algebra.BigOperators.Group.Finset.Basic
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The shape of the three argument vectors. -/
abbrev Vec8192 : Shape := ⟨1, ![8192]⟩
/-- A rank-zero array: one entry. -/
abbrev Scal : Shape := ⟨0, ![]⟩
/-- A column of 8192 entries. -/
abbrev Col8192 : Shape := ⟨2, ![8192, 1]⟩
/-- A row of 8192 entries. -/
abbrev Row8192 : Shape := ⟨2, ![1, 8192]⟩
/-- The kernel's output array: eight entries per row tile, eight row tiles. -/
abbrev Out64 : Shape := ⟨2, ![64, 1]⟩

section Loss

variable (s : Vec8192.Idx → EReal) (l p : Vec8192.Idx → BitVec 32)

/-- The pair (i, j) is counted: same property, a positive row, a negative column. -/
def valid (i j : Fin 8192) : Prop :=
  p (ix1 i) = p (ix1 j) ∧ l (ix1 i) = 1#32 ∧ l (ix1 j) = 0#32

instance (i j : Fin 8192) : Decidable (valid l p i j) := by unfold valid; infer_instance

/-- The hinge of the pair (i, j), with margin one. -/
def hinge (i j : Fin 8192) : EReal := max (1 - (s (ix1 i) - s (ix1 j))) 0

/-- The sum of the hinges over the valid pairs. -/
def lossSum : EReal := ∑ i : Fin 8192, ∑ j : Fin 8192, if valid l p i j then hinge s i j else 0

/-- The number of valid pairs, as a 32-bit word. -/
def pairCount : BitVec 32 := ∑ i : Fin 8192, ∑ j : Fin 8192, if valid l p i j then 1#32 else 0#32

/-- The mean from a total and a count: zero for no pair, else the total over the count read signed. -/
def finish (total : EReal) (n : BitVec 32) : Scal.Idx → EReal := fun _ =>
  Scalar.select (IntOp.cmpi .eq n 0#32) (0 : EReal) (Ideal.div total (((n.toInt : ℝ)) : EReal))

/-- The loss. -/
def loss : Scal.Idx → EReal := finish (lossSum s l p) (pairCount l p)

end Loss

section Relaid

variable (s : Vec8192.Idx → EReal) (l p : Vec8192.Idx → BitVec 32)

/-- The row of the whole array a column's entry sits in. -/
def colRow (y : Col8192.Idx) : Fin 8192 := ⟨(y 0).val, (y 0).isLt⟩
/-- The column of the whole array a row's entry sits in. -/
def rowCol (y : Row8192.Idx) : Fin 8192 := ⟨(y 1).val, (y 1).isLt⟩

/-- The row code: the property id of a positive row, minus one (a value no id takes) elsewhere. -/
def rowCode : Col8192.Idx → BitVec 32 := fun y =>
  Scalar.select (IntOp.cmpi .eq (l (ix1 (colRow y))) 1#32) (p (ix1 (colRow y))) 4294967295#32
/-- The column code: the property id of a negative column, minus two elsewhere. -/
def colCode : Row8192.Idx → BitVec 32 := fun y =>
  Scalar.select (IntOp.cmpi .eq (l (ix1 (rowCol y))) 0#32) (p (ix1 (rowCol y))) 4294967294#32
/-- The row scores, shifted down by the margin. -/
def rowScore : Col8192.Idx → EReal := fun y => s (ix1 (colRow y)) - 1
/-- The column scores. -/
def colScore : Row8192.Idx → EReal := fun y => s (ix1 (rowCol y))

end Relaid

section Kernel

variable (RC : Col8192.Idx → BitVec 32) (CC : Row8192.Idx → BitVec 32)
  (RS : Col8192.Idx → EReal) (CS : Row8192.Idx → EReal)

/-- What the kernel adds for the pair (i, j): the hinge of the shifted scores where the codes agree. -/
def kterm (i j : Fin 8192) : EReal :=
  Scalar.select (IntOp.cmpi .eq (RC (ix2 i 0)) (CC (ix2 0 j))) (max (CS (ix2 0 j) - RS (ix2 i 0)) 0) 0

/-- Row `r` of row tile `t`, as a row of the whole array. -/
def rowOf (t : Fin 8) (r : Fin 1024) : Fin 8192 := ⟨1024 * t.val + r.val, by omega⟩
/-- Column `q` of column block `b`, as a column of the whole array. -/
def colOf (b : Fin 4) (q : Fin 2048) : Fin 8192 := ⟨2048 * b.val + q.val, by omega⟩

/-- A row's sum over the first `n` column blocks, block after block. -/
def rowAcc (i : Fin 8192) : (n : ℕ) → n ≤ 4 → EReal
  | 0, _ => 0
  | n + 1, h => rowAcc i n (by omega) + ∑ q : Fin 2048, kterm RC CC RS CS i (colOf ⟨n, by omega⟩ q)

/-- The sum a row tile leaves: its rows' sums over all four column blocks. -/
def tileSum (t : Fin 8) : EReal := ∑ r : Fin 1024, rowAcc RC CC RS CS (rowOf t r) 4 (le_refl 4)

/-- The kernel's output array: per row tile, the tile's sum and then seven zeros. -/
def outArr : Out64.Idx → EReal := fun y =>
  if (y 0).val % 8 = 0 then tileSum RC CC RS CS ⟨(y 0).val / 8, by have h : (y 0).val < 64 := (y 0).isLt; omega⟩ else 0

/-- The kernel's mean: it tests the count after the conversion to a real number. -/
def kfinish (total : EReal) (n : BitVec 32) : Scal.Idx → EReal := fun _ =>
  Scalar.select (Ideal.cmp .oeq (((n.toInt : ℝ)) : EReal) 0) (0 : EReal) (Ideal.div total (((n.toInt : ℝ)) : EReal))

end Kernel

end Cert.Spec

end
-- ==== Proof.RefSide.lean ====
/-
  The reference's result is the loss.

  The reference builds the 8192 x 8192 mask of valid pairs (same property, positive row, negative
  column), the matrix of hinges `max (1 - (s i - s j)) 0`, adds the hinges under the mask over
  all pairs, counts the mask in 32-bit integers, and divides, returning zero when the count is
  zero. Read entry by entry these are the double sums of the specification.
-/
import proofs.«422864_j23493471109250_3_alg».proof.Proof.ReadP
import proofs.«422864_j23493471109250_3_alg».proof.Proof.Spec
import Idealize.ShloMosaic.PureOps.Reduce
import Idealize.ShloMosaic.Lib.Affine
import Idealize.ShloMosaic.Lib.IdealHost

noncomputable section

namespace Cert.ReferenceIdeal.RefValue

open Idealize.ShloMosaic Idealize.ShloMosaic.ValueIdx Cert.ReferenceIdeal Cert.ReferenceIdeal.ReadP

/-! ## Words and folds -/

/-- A fold of word addition over a finite set is the initial word plus the sum over the set. -/
private theorem fold_addi_eq_sum {ι : Type} (S : Finset ι) (init : BitVec 32) (x : ι → BitVec 32) :
    S.fold IntOp.addi init x = init + ∑ k ∈ S, x k := by
  induction S using Finset.cons_induction with
  | empty => simp
  | cons a S ha ih =>
    rw [Finset.fold_cons, Finset.sum_cons, ih]
    show x a + (init + ∑ k ∈ S, x k) = init + (x a + ∑ k ∈ S, x k)
    rw [add_left_comm]

/-- An integer sum-reduction of a whole array to a single entry is the initial word plus the sum of
    all entries: every index drops to the one index of the rank-zero result. -/
private theorem reduce_addi_scalar {s : Shape} {axes : List (Fin s.rank)} (x : s.Idx → BitVec 32)
    (init : (⟨0, ![]⟩ : Shape).Idx → BitVec 32) (h : s.ReducesTo axes ⟨0, ![]⟩) (hu : 0 < (⟨0, ![]⟩ : Shape).numel)
    (j : (⟨0, ![]⟩ : Shape).Idx) :
    Host.reduce IntOp.addi x init h hu j = init (Shape.Idx.first hu) + ∑ k, x k := by
  rw [Host.reduce_eq_fold, fold_addi_eq_sum]
  congr 2
  exact Finset.filter_true_of_mem fun k _ => funext fun a => a.elim0

/-- A one-bit word widened to 32 bits is one or zero. -/
private theorem setWidth_bit (c : BitVec 1) : c.setWidth 32 = if c = 1#1 then 1#32 else 0#32 := by
  revert c; decide

/-- A select on a bit is the `if` on the bit being one. -/
private theorem select_eq_ite {α : Type} (c : BitVec 1) (a b : α) :
    Scalar.select c a b = if c = 1#1 then a else b := rfl

/-- The conjunction of the three comparison bits is one exactly on the valid pairs. -/
private theorem mask_eq_one (l p : Cert.Spec.Vec8192.Idx → BitVec 32) (i j : Fin 8192) :
    IntOp.andi (IntOp.andi (IntOp.cmpi .eq (p (ix1 i)) (p (ix1 j))) (IntOp.cmpi .eq (l (ix1 i)) 1#32))
        (IntOp.cmpi .eq (l (ix1 j)) 0#32) = 1#1 ↔ Cert.Spec.valid l p i j := by
  rw [IntOp.andi_eq_one, IntOp.andi_eq_one, IntOp.cmpi_eq, IntOp.cmpi_eq, IntOp.cmpi_eq, and_assoc]
  rfl

/-! ## Where the broadcasts read: entry (i, j) of a square array reads row i of a column and
    column j of a row, hence entry i, respectively j, of the vector. -/

private theorem e_v0_v2 (i j : Fin 8192) : idx_main_v0 (idx_main_v2 (ix2 i j)) = ix1 i :=
  funext fun a => match a with | ⟨0, _⟩ => rfl
private theorem e_v1_v3 (i j : Fin 8192) : idx_main_v1 (idx_main_v3 (ix2 i j)) = ix1 j :=
  funext fun a => match a with | ⟨0, _⟩ => rfl
private theorem e_v7_v8 (i j : Fin 8192) : idx_main_v7 (idx_main_v8 (ix2 i j)) = ix1 i :=
  funext fun a => match a with | ⟨0, _⟩ => rfl
private theorem e_v12_v13 (i j : Fin 8192) : idx_main_v12 (idx_main_v13 (ix2 i j)) = ix1 j :=
  funext fun a => match a with | ⟨0, _⟩ => rfl
private theorem e_v15_v17 (i j : Fin 8192) : idx_main_v15 (idx_main_v17 (ix2 i j)) = ix1 i :=
  funext fun a => match a with | ⟨0, _⟩ => rfl
private theorem e_v16_v18 (i j : Fin 8192) : idx_main_v16 (idx_main_v18 (ix2 i j)) = ix1 j :=
  funext fun a => match a with | ⟨0, _⟩ => rfl

section Entries

variable (x0 : (⟨S8192, .f32⟩ : BufTy).Contents (Elt Ideal)) (x1 x2 : (⟨S8192, .i32⟩ : BufTy).Contents (Elt Ideal))

/-- The mask at (i, j): same property, positive row, negative column. -/
private theorem v14_at (i j : Fin 8192) :
    val_main_v14 (F := Ideal) x1 x2 (ix2 i j) =
      IntOp.andi (IntOp.andi (IntOp.cmpi .eq (x2 (ix1 i)) (x2 (ix1 j))) (IntOp.cmpi .eq (x1 (ix1 i)) 1#32))
        (IntOp.cmpi .eq (x1 (ix1 j)) 0#32) := by
  rw [val_main_v14_apply, val_main_v9_apply, val_main_v4_apply, val_main_v2_apply, val_main_v0_apply,
    val_main_v3_apply, val_main_v1_apply, val_main_v8_apply, val_main_v7_apply, val_main_v6_apply,
    val_main_v5_apply, val_main_c_apply, val_main_v13_apply, val_main_v12_apply, val_main_v11_apply,
    val_main_v10_apply, val_main_c_0_apply, e_v0_v2, e_v1_v3, e_v7_v8, e_v12_v13]

/-- The hinge matrix at (i, j). -/
private theorem v23_at (i j : Fin 8192) :
    val_main_v23 (F := Ideal) x0 (ix2 i j) = Cert.Spec.hinge x0 i j := by
  rw [val_main_v23_apply, val_main_v21_apply, val_main_v20_apply, val_main_cst_apply, val_main_v19_apply,
    val_main_v17_apply, val_main_v15_apply, val_main_v18_apply, val_main_v16_apply, val_main_v22_apply,
    val_main_cst_1_apply, e_v15_v17, e_v16_v18]
  simp only [Ideal.ofBits_def, Ideal.ofBits_one_f32, Ideal.ofBits_zero_f32, Ideal.subf_def, Ideal.maximumf_def]
  rfl

/-- The masked hinge at (i, j). -/
private theorem v24_at (i j : Fin 8192) :
    val_main_v24 (F := Ideal) x0 x1 x2 (ix2 i j) = if Cert.Spec.valid x1 x2 i j then Cert.Spec.hinge x0 i j else 0 := by
  rw [val_main_v24_apply, v14_at, v23_at, val_main_call0_v1_apply, val_main_call0_v0_apply, val_main_cst_2_apply,
    select_eq_ite]
  simp only [Ideal.ofBits_def, Ideal.ofBits_zero_f32]
  exact if_congr (mask_eq_one x1 x2 i j) rfl rfl

/-- The widened mask bit at (i, j). -/
private theorem v26_at (i j : Fin 8192) :
    val_main_v26 (F := Ideal) x1 x2 (ix2 i j) = if Cert.Spec.valid x1 x2 i j then 1#32 else 0#32 := by
  rw [val_main_v26_apply, v14_at, setWidth_bit]
  exact if_congr (mask_eq_one x1 x2 i j) rfl rfl

/-- The float sum is the loss sum. -/
private theorem v25_eq (k : S_.Idx) : val_main_v25 (F := Ideal) x0 x1 x2 k = Cert.Spec.lossSum x0 x1 x2 := by
  rw [val_main_v25_apply, val_main_cst_3_apply, sum_idx2]
  simp only [v24_at, Ideal.ofBits_def, Ideal.ofBits_zero_f32, zero_add]
  rfl

/-- The integer sum is the pair count. -/
private theorem v27_eq (k : S_.Idx) : val_main_v27 (F := Ideal) x1 x2 k = Cert.Spec.pairCount x1 x2 := by
  unfold val_main_v27
  rw [reduce_addi_scalar, val_main_c_4_apply, sum_idx2]
  simp only [v26_at, BitVec.zero_add]
  rfl

end Entries

/-- The reference's result, as the generated stages state it, is the loss of the three arguments. -/
theorem ref_value (x0 : (⟨S8192, .f32⟩ : BufTy).Contents (Elt Ideal)) (x1 x2 : (⟨S8192, .i32⟩ : BufTy).Contents (Elt Ideal)) :
    val_main_v31 (F := Ideal) x0 x1 x2 = Cert.Spec.loss x0 x1 x2 := by
  funext k
  rw [val_main_v31_apply, val_main_v28_apply, val_main_c_5_apply, val_main_cst_6_apply, val_main_v30_apply,
    val_main_v29_apply, v27_eq, v25_eq]
  simp only [Ideal.ofBits_def, Ideal.ofBits_zero_f32, Ideal.hostDivf_def]
  rfl

end Cert.ReferenceIdeal.RefValue

end
-- ==== Proof.Tail.lean ====
/-
  What the host operations after the pallas_call compute: the entries of the output array are
  added up, and the sum is divided by the pair count as a real number, unless that number is zero,
  in which case the result is zero.
-/
import proofs.«422864_j23493471109250_3_alg».proof.Proof.Gen.KernelIdeal.Frame
import proofs.«422864_j23493471109250_3_alg».proof.Proof.Spec
import Idealize.ShloMosaic.Lib.StableHlo.Run
import Idealize.ShloMosaic.PureOps.Ideal.Laws

noncomputable section

namespace Cert.KernelIdeal.Tail

open Idealize.ShloMosaic Idealize.ShloMosaic.TcCoe Idealize.ShloMosaic.ValueIdx Idealize.SL.Sem Idealize.ShloMosaic.StableHlo Cert.KernelIdeal Cert.KernelIdeal.Gen

/-! Contents carried to and from the final selection's typed references are the contents: each
    transport is along a type equation that holds by computation. -/
theorem toBuf_main_v31 (h0 h1 h2) (v : (⟨S_, .f32⟩ : BufTy).Contents (Elt Ideal)) : (TRef.of (T := ⟨S_, .f32⟩) main_v31 h0 h1 h2).toBuf v = v := rfl
theorem ofBuf_main_v29 (h0 h1 h2) (v : (⟨S_, .i1⟩ : BufTy).Contents (Elt Ideal)) : (TRef.of (T := ⟨S_, .i1⟩) main_v29 h0 h1 h2).ofBuf v = v := rfl
theorem ofBuf_main_cst_10 (h0 h1 h2) (v : (⟨S_, .f32⟩ : BufTy).Contents (Elt Ideal)) : (TRef.of (T := ⟨S_, .f32⟩) main_cst_10 h0 h1 h2).ofBuf v = v := rfl
theorem ofBuf_main_v30 (h0 h1 h2) (v : (⟨S_, .f32⟩ : BufTy).Contents (Elt Ideal)) : (TRef.of (T := ⟨S_, .f32⟩) main_v30 h0 h1 h2).ofBuf v = v := rfl

variable (m : (ℓ : Loc nD τ sig) → Buf (Elt Ideal) ℓ)

/-- The program's result, given the count `n` that the operations before the region left as a real number:
    the mean of the output array's total over `n`, tested for zero as a real number. -/
theorem tail_value (c : Dev nD) (n : BitVec 32)
    (hn : (V m c main_v14 : S_.Idx → EReal) = fun _ => ((n.toInt : ℝ) : EReal)) :
    (Pipeline.afterTail₀ cfgs (dats m) 0 (V0 m) [hostOps1, hostOps1_1] c main_v31 : S_.Idx → EReal)
      = Cert.Spec.kfinish (∑ y : S64x1.Idx, ((dats m 0 c).arrAt 4 cfg0.N : S64x1.Idx → EReal) y) n := by
  unfold Pipeline.afterTail₀
  have e27 : Pipeline.withArrays (cfgs 0).spec c (V0 m c) (fun w => (dats m 0 c).arrAt w (cfgs 0).N) (Proc.devRef .tc main_v27)
      = (dats m 0 c).arrAt 4 cfg0.N :=
    Pipeline.withArrays_arr spec0 launch0.win.arr_inj c (V0 m c) (fun w => (dats m 0 c).arrAt w (cfgs 0).N) 4
  have e14 : Pipeline.withArrays (cfgs 0).spec c (V0 m c) (fun w => (dats m 0 c).arrAt w (cfgs 0).N) (Proc.devRef .tc main_v14)
      = V m c main_v14 :=
    Pipeline.withArrays_of_ne spec0 c (V0 m c) _ main_v14 (by decide)
  generalize Pipeline.withArrays (cfgs 0).spec c (V0 m c) (fun w => (dats m 0 c).arrAt w (cfgs 0).N) = W at e27 e14 ⊢
  obtain ⟨OUT, hOUT⟩ : ∃ OUT : S64x1.Idx → EReal, OUT = (dats m 0 c).arrAt 4 cfg0.N := ⟨_, rfl⟩
  rw [← hOUT] at e27 ⊢
  clear hOUT
  rw [hn] at e14
  simp only [hostOps1, hostOps1_1, List.flatten_cons, List.flatten_nil, List.append_nil, List.cons_append, List.nil_append]
  after_results_simp
  rw [e27, e14]
  simp only [toBuf_main_v31, ofBuf_main_v29, ofBuf_main_cst_10, ofBuf_main_v30]
  funext i
  have hsum : Host.reduceAdd (F := Ideal) OUT (constant (F := Ideal) S_ .f32 0x00000000#32) reducesTo_S64x1_S_d0_1 h_S_ i
      = (constant (F := Ideal) S_ .f32 0x00000000#32) (Shape.Idx.first h_S_) + ∑ y : S64x1.Idx, OUT y := by
    simp only [Host.reduceAdd, Ideal.hostReduceAdd_def]
    exact Ideal.hostReduceAdd_total reducesTo_S64x1_S_d0_1 (fun b => b.elim0) OUT _ i
  show Scalar.select (FloatOps.cmpf .oeq (((n.toInt : ℝ)) : EReal) (constant (F := Ideal) S_ .f32 0x00000000#32 i))
      (constant (F := Ideal) S_ .f32 0x00000000#32 i)
      (FloatOps.hostDivf (Host.reduceAdd (F := Ideal) OUT (constant (F := Ideal) S_ .f32 0x00000000#32) reducesTo_S64x1_S_d0_1 h_S_ i)
        (((n.toInt : ℝ)) : EReal)) = _
  rw [hsum]
  simp only [constant_apply, Ideal.ofBits_zero_f32, zero_add, Ideal.cmpf_def, Ideal.hostDivf_def, Cert.Spec.kfinish]

end Cert.KernelIdeal.Tail

end
-- ==== Proof.LibScatterSum.lean ====
/-
  A scatter that adds, read at an index.

  `Host.scatter` folds over the update indices in row-major order; each update either lands at one
  operand index (`ScatterDims.resultIdx?` is `some`) and is combined with what is there, or is
  dropped. When the combining operation is the addition of a commutative monoid the order does
  not matter, and the result at an operand index is the operand's element plus the sum of the
  updates that land at that index.
-/
import Idealize.ShloMosaic.PureOps.ShapeOps
import Mathlib.Algebra.BigOperators.Group.Finset.Basic
import Mathlib.Algebra.BigOperators.Fin

noncomputable section

namespace Idealize.ShloMosaic

/-- The scatter's fold over ANY list of update indices, from any start: at an operand index it leaves the
    start's element plus the list sum of the updates that land there. -/
theorem Host.scatter_foldl_add_apply {α : Type} [AddCommMonoid α] {s si u : Shape} {w : Nat} (d : ScatterDims s si u)
    (idx : IVec si w) (upd : u.Idx → α) (i : s.Idx) (L : List u.Idx) (r₀ : s.Idx → α) :
    (L.foldl (fun r n =>
        match d.resultIdx? n idx with
        | some i => fun i' => if i' = i then r i + upd n else r i'
        | none => r) r₀) i
      = r₀ i + (L.map fun n => if d.resultIdx? n idx = some i then upd n else 0).sum := by
  induction L generalizing r₀ with
  | nil => simp
  | cons n L ih =>
    rw [List.foldl_cons, ih, List.map_cons, List.sum_cons, ← add_assoc]
    congr 1
    cases h : d.resultIdx? n idx with
    | none => simp
    | some k =>
      by_cases hk : i = k
      · subst hk; simp
      · have hk' : ¬ k = i := fun e => hk e.symm
        simp [hk, hk']

/-- A scatter whose body is the addition of a commutative monoid leaves, at every operand index, the
    operand's element plus the sum of the updates whose result index is that index. -/
theorem Host.scatter_add_apply {α : Type} [AddCommMonoid α] {s si u : Shape} {w : Nat} (d : ScatterDims s si u)
    (x : s.Idx → α) (idx : IVec si w) (upd : u.Idx → α) (i : s.Idx) :
    Host.scatter d (fun a b => a + b) x idx upd i
      = x i + ∑ n : u.Idx, if d.resultIdx? n idx = some i then upd n else 0 := by
  have h := Host.scatter_foldl_add_apply d idx upd i ((List.finRange u.numel).map u.rowMajor.symm) x
  rw [List.foldl_map, List.map_map] at h
  rw [← Equiv.sum_comp u.rowMajor.symm, Fin.sum_univ_def]
  exact h

end Idealize.ShloMosaic

end
-- ==== Proof.Count.lean ====
/-
  The number of valid pairs as the kernel's program computes it.

  The program counts, per property id q in 0..31, the positive entries with id q and the negative
  entries with id q (two scatter-adds of 0/1 words into a vector of 32 zeros, an entry whose id is
  outside 0..31 being dropped), multiplies the two vectors entry by entry and adds the 32
  products. When every id lies in 0..31 this is the number of valid pairs: a pair (i, j) with
  `p i = p j = q`, `l i = 1`, `l j = 0` is counted once, at q. The identity holds in the ring of
  32-bit words, whatever the sizes.
-/
import proofs.«422864_j23493471109250_3_alg».proof.Proof.Gen.KernelIdeal
import proofs.«422864_j23493471109250_3_alg».proof.Proof.Spec
import proofs.«422864_j23493471109250_3_alg».proof.Proof.LibScatterSum
import Idealize.ShloMosaic.Lib.StableHlo.Predicate
import Idealize.ShloMosaic.Lib.Pipeline.Value

noncomputable section

namespace Cert.KernelIdeal.Count

open Idealize.ShloMosaic Idealize.ShloMosaic.ValueIdx Cert.KernelIdeal Cert.KernelIdeal.Facts₀

/-- The count as the program's own term of the labels `l` and the ids `p`. -/
def kcountTerm (l p : S8192.Idx → BitVec 32) : S_.Idx → BitVec 32 :=
  Host.reduce IntOp.addi
    (muli
      (Host.scatter scatter_S32_S8192x1_S8192_n_0_0_1 IntOp.addi (broadcastInDim S32 ![] bcast_S_S32 (constantI S_ 32 0#32))
        (broadcastInDim S8192x1 ![0] bcast_S8192_S8192x1_0 p)
        (extui 32 (cmpi .eq l (broadcastInDim S8192 ![] bcast_S_S8192 (constantI S_ 32 1#32))) natLt_1_32))
      (Host.scatter scatter_S32_S8192x1_S8192_n_0_0_1 IntOp.addi (broadcastInDim S32 ![] bcast_S_S32 (constantI S_ 32 0#32))
        (broadcastInDim S8192x1 ![0] bcast_S8192_S8192x1_0 p)
        (extui 32 (cmpi .eq l (broadcastInDim S8192 ![] bcast_S_S8192 (constantI S_ 32 0#32))) natLt_1_32)))
    (constantI S_ 32 0#32) reducesTo_S32_S_d0 h_S_

/-- The scatter-indices entry an update reads its start index from: the update's own row, column zero. -/
theorem siIdx_eq (n : S8192.Idx) (c : Fin scatter_S32_S8192x1_S8192_n_0_0_1.scatterDimsToOperandDims.length) :
    scatter_S32_S8192x1_S8192_n_0_0_1.siIdx n c = ix2 (n 0) 0 := by
  funext b
  match b with
  | ⟨0, _⟩ =>
    apply Fin.ext
    show (n _).val = (n 0).val
    exact congrArg (fun a => (n a).val) (Subsingleton.elim _ _)
  | ⟨1, _⟩ =>
    apply Fin.ext
    show c.val = 0
    have := c.isLt
    change c.val < 1 at this
    omega

/-- The window's start on the operand's one axis is that entry, read signed. -/
theorem start_eq (n : S8192.Idx) (idx : IVec S8192x1 32) (a : Fin S32.rank) :
    scatter_S32_S8192x1_S8192_n_0_0_1.start n idx a = (idx (ix2 (n 0) 0)).toInt := by
  have ha : a = 0 := Subsingleton.elim _ _
  subst ha
  unfold ScatterDims.start
  rw [dif_pos (by decide), siIdx_eq]
  rfl

/-- The operand's one axis is inserted: the window coordinate on it is zero. -/
theorem window_eq (n : S8192.Idx) (a : Fin S32.rank) :
    scatter_S32_S8192x1_S8192_n_0_0_1.window n a = 0 := by
  have ha : a = 0 := Subsingleton.elim _ _
  subst ha
  unfold ScatterDims.window
  rw [dif_neg (by decide)]

/-- An update lands at operand index `q` exactly when its start index, read signed, is `q`'s coordinate. -/
theorem resultIdx_eq_some_iff (n : S8192.Idx) (idx : IVec S8192x1 32) (q : S32.Idx) :
    scatter_S32_S8192x1_S8192_n_0_0_1.resultIdx? n idx = some q ↔ (idx (ix2 (n 0) 0)).toInt = ((q 0).val : Int) := by
  have hq : (q 0).val < 32 := (q 0).isLt
  unfold ScatterDims.resultIdx?
  split
  · next h =>
    have h0 := h 0
    rw [start_eq, window_eq] at h0
    rw [Option.some.injEq]
    constructor
    · intro e
      have := congrArg (fun f : S32.Idx => ((f 0).val : Int)) e
      simp only [start_eq, window_eq] at this
      omega
    · intro e
      funext a
      have ha : a = 0 := Subsingleton.elim _ _
      subst ha
      apply Fin.ext
      simp only [start_eq, window_eq]
      omega
  · next h =>
    constructor
    · intro e; exact absurd e (by simp)
    · intro e
      exfalso
      apply h
      intro a
      have ha : a = 0 := Subsingleton.elim _ _
      subst ha
      rw [start_eq, window_eq]
      show 0 ≤ _ ∧ _ < ((32 : Nat) : Int)
      omega

/-- A fold of word addition from a start is the start plus the sum. -/
theorem fold_addi_eq {ι : Type} (S : Finset ι) (b : BitVec 32) (f : ι → BitVec 32) :
    S.fold IntOp.addi b f = b + ∑ i ∈ S, f i := by
  induction S using Finset.cons_induction with
  | empty => simp
  | cons a S ha ih =>
    rw [Finset.fold_cons, Finset.sum_cons, ih]
    show f a + (b + _) = b + (f a + _)
    exact add_left_comm _ _ _

/-- The program's last reduction adds the 32 entries. -/
theorem reduce_addi_scalar (X : S32.Idx → BitVec 32) (j : S_.Idx) :
    Host.reduce IntOp.addi X (constantI S_ 32 0#32) reducesTo_S32_S_d0 h_S_ j = ∑ q : S32.Idx, X q := by
  rw [Host.reduce_eq_fold, fold_addi_eq]
  have hf : (Finset.univ.filter fun i : S32.Idx => reducesTo_S32_S_d0.drop i = j) = Finset.univ := by
    apply Finset.filter_true_of_mem
    intro i _
    funext a
    exact Fin.elim0 a
  rw [hf]
  show (0 : BitVec 32) + _ = _
  rw [zero_add]

/-- The index array at an update's entry is the update's own id. -/
theorem idx_apply (p : S8192.Idx → BitVec 32) (n : S8192.Idx) :
    broadcastInDim S8192x1 ![0] bcast_S8192_S8192x1_0 p (ix2 (n 0) 0) = p n := by
  refine broadcastInDim_apply _ _ p _ n fun a => ?_
  have ha : a = 0 := Subsingleton.elim _ _
  subst ha
  rw [if_neg (by decide)]
  rfl

/-- A widened comparison with a constant is the 0/1 word of the equality. -/
theorem mask_apply (l : S8192.Idx → BitVec 32) (c : BitVec 32) (n : S8192.Idx) :
    extui 32 (cmpi .eq l (broadcastInDim S8192 ![] bcast_S_S8192 (constantI S_ 32 c))) natLt_1_32 n
      = if l n = c then 1 else 0 := by
  show (IntOp.cmpi .eq (l n) c).setWidth 32 = _
  by_cases h : l n = c
  · rw [if_pos h, StableHlo.Predicate.cmpi_eq_iff.2 h]; rfl
  · rw [if_neg h, eq_zero_of_ne_one (fun e => h (StableHlo.Predicate.cmpi_eq_iff.1 e))]; rfl

/-- One of the program's two scatters, at an entry: the number of labelled entries with that id. -/
theorem scatter_count (l p : S8192.Idx → BitVec 32) (c : BitVec 32) (q : S32.Idx) :
    Host.scatter scatter_S32_S8192x1_S8192_n_0_0_1 IntOp.addi (broadcastInDim S32 ![] bcast_S_S32 (constantI S_ 32 0#32))
        (broadcastInDim S8192x1 ![0] bcast_S8192_S8192x1_0 p)
        (extui 32 (cmpi .eq l (broadcastInDim S8192 ![] bcast_S_S8192 (constantI S_ 32 c))) natLt_1_32) q
      = ∑ n : S8192.Idx, if (p n).toInt = ((q 0).val : Int) then (if l n = c then 1 else 0) else 0 := by
  refine (Host.scatter_add_apply scatter_S32_S8192x1_S8192_n_0_0_1 _ _ _ q).trans ?_
  have h0 : broadcastInDim S32 ![] bcast_S_S32 (constantI S_ 32 0#32) q = 0 := rfl
  rw [h0, zero_add]
  refine Finset.sum_congr rfl fun n _ => ?_
  rw [mask_apply]
  by_cases h : (p n).toInt = ((q 0).val : Int)
  · rw [if_pos h, if_pos ((resultIdx_eq_some_iff n _ q).2 (by rw [idx_apply]; exact h))]
  · rw [if_neg h, if_neg (fun e => h (by have := (resultIdx_eq_some_iff n _ q).1 e; rwa [idx_apply] at this))]

/-- A sum over a vector's index set is the sum over its coordinate. -/
theorem sum_ix1 {N : Nat} (f : (⟨1, ![N]⟩ : Shape).Idx → BitVec 32) :
    ∑ i : Fin N, f (ix1 i) = ∑ n, f n :=
  Fintype.sum_equiv ⟨ix1, fun n => n 0, fun _ => rfl, fun n => (eq_ix1 n).symm⟩ _ _ fun _ => rfl

/-- Over the 32 ids, a positive entry and a negative entry meet exactly at their common id. -/
theorem sum_ids (l p : S8192.Idx → BitVec 32) (hr : ∀ i, 0 ≤ (p i).toInt ∧ (p i).toInt < 32) (n m : S8192.Idx) :
    ∑ q : S32.Idx, (if (p n).toInt = ((q 0).val : Int) then (if l n = 1#32 then (1 : BitVec 32) else 0) else 0)
        * (if (p m).toInt = ((q 0).val : Int) then (if l m = 0#32 then (1 : BitVec 32) else 0) else 0)
      = if p n = p m ∧ l n = 1#32 ∧ l m = 0#32 then 1#32 else 0#32 := by
  obtain ⟨h0, h1⟩ := hr n
  have hlt : (p n).toInt.toNat < 32 := by omega
  have hqn : (((ix1 (⟨(p n).toInt.toNat, hlt⟩ : Fin 32) : S32.Idx) 0).val : Int) = (p n).toInt := by
    show (((p n).toInt.toNat : Nat) : Int) = _
    omega
  rw [Finset.sum_eq_single (ix1 (⟨(p n).toInt.toNat, hlt⟩ : Fin 32) : S32.Idx)]
  · rw [hqn, if_pos rfl]
    by_cases e : p n = p m
    · rw [if_pos (show (p m).toInt = (p n).toInt from by rw [e])]
      by_cases a : l n = 1#32 <;> by_cases b : l m = 0#32 <;> simp [e, a, b]
    · rw [if_neg (show ¬ (p m).toInt = (p n).toInt from fun h => e (BitVec.eq_of_toInt_eq h.symm))]
      simp [e]
  · intro q _ hq
    rw [if_neg, zero_mul]
    intro h
    apply hq
    funext a
    have ha : a = 0 := Subsingleton.elim _ _
    subst ha
    apply Fin.ext
    show (q 0).val = (p n).toInt.toNat
    omega
  · intro h
    exact absurd (Finset.mem_univ _) h

/-- The sum over the ids of the products of the two counts is the number of valid pairs. -/
theorem sum_counts (l p : S8192.Idx → BitVec 32) (hr : ∀ i, 0 ≤ (p i).toInt ∧ (p i).toInt < 32) :
    ∑ q : S32.Idx,
        (∑ n : S8192.Idx, if (p n).toInt = ((q 0).val : Int) then (if l n = 1#32 then (1 : BitVec 32) else 0) else 0)
          * (∑ m : S8192.Idx, if (p m).toInt = ((q 0).val : Int) then (if l m = 0#32 then (1 : BitVec 32) else 0) else 0)
      = Cert.Spec.pairCount l p := by
  calc _ = ∑ q : S32.Idx, ∑ n : S8192.Idx, ∑ m : S8192.Idx,
              (if (p n).toInt = ((q 0).val : Int) then (if l n = 1#32 then (1 : BitVec 32) else 0) else 0)
                * (if (p m).toInt = ((q 0).val : Int) then (if l m = 0#32 then (1 : BitVec 32) else 0) else 0) :=
          Finset.sum_congr rfl fun q _ => Finset.sum_mul_sum _ _ _ _
    _ = ∑ n : S8192.Idx, ∑ m : S8192.Idx, ∑ q : S32.Idx,
              (if (p n).toInt = ((q 0).val : Int) then (if l n = 1#32 then (1 : BitVec 32) else 0) else 0)
                * (if (p m).toInt = ((q 0).val : Int) then (if l m = 0#32 then (1 : BitVec 32) else 0) else 0) := by
          rw [Finset.sum_comm]
          exact Finset.sum_congr rfl fun n _ => Finset.sum_comm
    _ = ∑ n : S8192.Idx, ∑ m : S8192.Idx, if p n = p m ∧ l n = 1#32 ∧ l m = 0#32 then 1#32 else 0#32 :=
          Finset.sum_congr rfl fun n _ => Finset.sum_congr rfl fun m _ => sum_ids l p hr n m
    _ = ∑ i : Fin 8192, ∑ j : Fin 8192,
            if p (ix1 i) = p (ix1 j) ∧ l (ix1 i) = 1#32 ∧ l (ix1 j) = 0#32 then 1#32 else 0#32 := by
          rw [← sum_ix1]
          exact Finset.sum_congr rfl fun i _ => (sum_ix1 _).symm
    _ = Cert.Spec.pairCount l p := by
          unfold Cert.Spec.pairCount
          exact Finset.sum_congr rfl fun i _ => Finset.sum_congr rfl fun j _ => if_congr Iff.rfl rfl rfl

/-- With every id in 0..31 the program's count is the number of valid pairs. -/
theorem kcountTerm_eq (l p : S8192.Idx → BitVec 32) (hr : ∀ i, 0 ≤ (p i).toInt ∧ (p i).toInt < 32) :
    kcountTerm l p = fun _ => Cert.Spec.pairCount l p := by
  funext j
  unfold kcountTerm
  rw [reduce_addi_scalar, ← sum_counts l p hr]
  refine Finset.sum_congr rfl fun q _ => ?_
  rw [show ∀ (A B : S32.Idx → BitVec 32) (q : S32.Idx), muli A B q = A q * B q from fun _ _ _ => rfl,
    scatter_count, scatter_count]

end Cert.KernelIdeal.Count

end
-- ==== Proof.Prefix.lean ====
/-
  What the host operations before the pallas_call leave in the arrays the grid reads, and in the
  count the operations after it divide by, as functions of the three arguments: the row codes
  (a column), the column codes (a row), the scores shifted by the margin (a column), the scores
  (a row), and the pair count converted to a real number.
-/
import proofs.«422864_j23493471109250_3_alg».proof.Proof.Gen.KernelIdeal.Frame.Runs
import proofs.«422864_j23493471109250_3_alg».proof.Proof.Spec
import proofs.«422864_j23493471109250_3_alg».proof.Proof.Count
import Idealize.ShloMosaic.Lib.StableHlo.Run
import Idealize.ShloMosaic.Lib.Pipeline.Value
import Idealize.ShloMosaic.Lib.IdealHost

noncomputable section

namespace Cert.KernelIdeal.Prefix

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ)

/-- The scores, the labels and the property ids the program is launched with. -/
abbrev sArg (c : Dev nD) : S8192.Idx → EReal := m ((c : Thread nD τ).loc main_arg0)
abbrev lArg (c : Dev nD) : S8192.Idx → BitVec 32 := m ((c : Thread nD τ).loc main_arg1)
abbrev pArg (c : Dev nD) : S8192.Idx → BitVec 32 := m ((c : Thread nD τ).loc main_arg2)

/-- A vector of 8192 entries re-laid as a column reads, at an entry, the vector at that entry's row. -/
theorem col_apply {α : Type} (x : S8192.Idx → α) (h : S8192.ShapeCasts S8192x1) (y : S8192x1.Idx) :
    shapeCast S8192x1 x h y = x (ix1 (Cert.Spec.colRow y)) := by
  refine shapeCast_apply x h y (ix1 (Cert.Spec.colRow y)) ?_
  rw [Shape.rowMajor_val_two, Shape.rowMajor_val_one]
  have h1 : (y 1).val < 1 := (y 1).isLt
  show (y 0).val = (y 0).val * 1 + (y 1).val
  omega

/-- A vector of 8192 entries re-laid as a row reads, at an entry, the vector at that entry's column. -/
theorem row_apply {α : Type} (x : S8192.Idx → α) (h : S8192.ShapeCasts S1x8192) (y : S1x8192.Idx) :
    shapeCast S1x8192 x h y = x (ix1 (Cert.Spec.rowCol y)) := by
  refine shapeCast_apply x h y (ix1 (Cert.Spec.rowCol y)) ?_
  rw [Shape.rowMajor_val_two, Shape.rowMajor_val_one]
  have h0 : (y 0).val < 1 := (y 0).isLt
  show (y 1).val = (y 0).val * 8192 + (y 1).val
  omega

/-- Window 0's array: the row codes. -/
theorem V_rowCode (c : Dev nD) : (V m c main_v18 : S8192x1.Idx → BitVec 32) = Cert.Spec.rowCode (lArg m c) (pArg m c) := by
  have e : (V m c main_v18 : S8192x1.Idx → BitVec 32)
      = shapeCast S8192x1
          (select (cmpi .eq (lArg m c) (broadcastInDim S8192 ![] bcast_S_S8192 (constantI S_ 32 1#32))) (pArg m c)
            (broadcastInDim S8192 ![] bcast_S_S8192 (constantI S_ 32 4294967295#32)))
          shapeCasts_S8192_S8192x1 := by
    dsimp only [Gen.V, Gen.V0]
    simp only [Gen.hostOps0, Gen.hostOps0_1, Gen.hostOps0_2, Gen.hostOps0_3, Gen.hostOps0_4, List.flatten_cons, List.flatten_nil,
      List.append_nil, List.cons_append, List.nil_append]
    after_results_simp
    simp only [StableHlo.TRef.ofBuf, StableHlo.TRef.toBuf, cast_eq, id]
    rfl
  rw [e]
  funext y
  rw [col_apply]
  rfl

/-- Window 1's array: the column codes. -/
theorem V_colCode (c : Dev nD) : (V m c main_v22 : S1x8192.Idx → BitVec 32) = Cert.Spec.colCode (lArg m c) (pArg m c) := by
  have e : (V m c main_v22 : S1x8192.Idx → BitVec 32)
      = shapeCast S1x8192
          (select (cmpi .eq (lArg m c) (broadcastInDim S8192 ![] bcast_S_S8192 (constantI S_ 32 0#32))) (pArg m c)
            (broadcastInDim S8192 ![] bcast_S_S8192 (constantI S_ 32 4294967294#32)))
          shapeCasts_S8192_S1x8192 := by
    dsimp only [Gen.V, Gen.V0]
    simp only [Gen.hostOps0, Gen.hostOps0_1, Gen.hostOps0_2, Gen.hostOps0_3, Gen.hostOps0_4, List.flatten_cons, List.flatten_nil,
      List.append_nil, List.cons_append, List.nil_append]
    after_results_simp
    simp only [StableHlo.TRef.ofBuf, StableHlo.TRef.toBuf, cast_eq, id]
    rfl
  rw [e]
  funext y
  rw [row_apply]
  rfl

/-- Window 2's array: the scores less the margin, as a column. -/
theorem V_rowScore (c : Dev nD) : (V m c main_v25 : S8192x1.Idx → EReal) = Cert.Spec.rowScore (sArg m c) := by
  have e : (V m c main_v25 : S8192x1.Idx → EReal)
      = shapeCast S8192x1
          (subf (sArg m c) (broadcastInDim S8192 ![] bcast_S_S8192 (constant (F := Ideal) S_ .f32 0x3F800000#32)))
          shapeCasts_S8192_S8192x1 := by
    dsimp only [Gen.V, Gen.V0]
    simp only [Gen.hostOps0, Gen.hostOps0_1, Gen.hostOps0_2, Gen.hostOps0_3, Gen.hostOps0_4, List.flatten_cons, List.flatten_nil,
      List.append_nil, List.cons_append, List.nil_append]
    after_results_simp
    rfl
  rw [e]
  funext y
  rw [col_apply, subf_apply, broadcastInDim_scalar_apply, constant_apply, Ideal.ofBits_one_f32]
  rfl

/-- Window 3's array: the scores, as a row. -/
theorem V_colScore (c : Dev nD) : (V m c main_v26 : S1x8192.Idx → EReal) = Cert.Spec.colScore (sArg m c) := by
  have e : (V m c main_v26 : S1x8192.Idx → EReal) = shapeCast S1x8192 (sArg m c) shapeCasts_S8192_S1x8192 := by
    dsimp only [Gen.V, Gen.V0]
    simp only [Gen.hostOps0, Gen.hostOps0_1, Gen.hostOps0_2, Gen.hostOps0_3, Gen.hostOps0_4, List.flatten_cons, List.flatten_nil,
      List.append_nil, List.cons_append, List.nil_append]
    after_results_simp
    rfl
  rw [e]
  funext y
  rw [row_apply]
  rfl

/-- The count, converted: the program's count term read as a signed integer. -/
theorem V_count (c : Dev nD) :
    (V m c main_v14 : S_.Idx → EReal) = fun _ => (((Count.kcountTerm (lArg m c) (pArg m c) ix0).toInt : ℝ) : EReal) := by
  have e : (V m c main_v14 : S_.Idx → EReal) = sitofp (F := Ideal) .f32 (Count.kcountTerm (lArg m c) (pArg m c)) := by
    dsimp only [Gen.V, Gen.V0]
    simp only [Gen.hostOps0, Gen.hostOps0_1, Gen.hostOps0_2, Gen.hostOps0_3, Gen.hostOps0_4, List.flatten_cons, List.flatten_nil,
      List.append_nil, List.cons_append, List.nil_append]
    after_results_simp
    rfl
  rw [e]
  funext j
  rw [eq_ix0 j]
  rfl

end Cert.KernelIdeal.Prefix

end
-- ==== Proof.Region.lean ====
/-
  What the pallas_call leaves in its output array.

  The grid has 8 row tiles of 1024 rows and, inside each, 4 column blocks of 2048 columns. The
  scratch column is reset at a row tile's first block and after block b holds, for each row of
  the tile, the row's sum of terms over blocks 0..b; at the last block the column is added up
  and written as the first of the tile's eight output entries, the other seven zero.

  In order: what each control case leaves in the scratch column and in the output block, as the
  stored columns of the case's input blocks; the stored columns read at an index over the
  extended reals; the input blocks as parts of the four arrays; the invariant over a row tile's
  points; the written-back blocks as blocks of one array, and the cover of that array.
-/
import proofs.«422864_j23493471109250_3_alg».proof.Proof.Gen.KernelIdeal.Frame
import proofs.«422864_j23493471109250_3_alg».proof.Proof.Spec
import Idealize.ShloMosaic.Lib.Pipeline.Value
import Idealize.ShloMosaic.Lib.ValueLayout

noncomputable section

namespace Cert.KernelIdeal.Region

open Idealize.ShloMosaic Idealize.ShloMosaic.TcCoe Idealize.ShloMosaic.ValueIdx Idealize.SL.Sem Cert.KernelIdeal Cert.KernelIdeal.Gen
open Idealize.ShloMosaic.Tactic

section Pieces
variable {F : FTy → Type} [FloatOps F]

theorem hz : (![0, 0] : Fin 2 → Nat) = fun _ => 0 := funext fun a => by fin_cases a <;> rfl

/-- At a point that is neither a row tile's first nor its last, the scratch column ends at the stored column over what
    the point before left. -/
theorem sout_B (c : Dev nD) (i : grid0.Coords) (arg2 : Memref sig .tc .vmem S1024x1 .i32) (harg2 : arg2.IsWhole) (arg3 : Memref sig .tc .vmem S1x2048 .i32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S8x1 .f32) (harg6 : arg6.IsWhole) (arg7 : Memref sig .tc .vmem S1024x1 .f32) (harg7 : arg7.IsWhole) (hc0 : ¬cond0_0 i) (hc1 : ¬cond0_1 i) (x0 : Vec F S1024x1 .i32) (x1 : Vec F S1x2048 .i32) (x2 : Vec F S1024x1 .f32) (x3 : Vec F S1x2048 .f32) (xs0 : Vec F S1024x1 .f32) :
    sout0_B_0 c i arg2 harg2 arg3 harg3 arg4 harg4 arg5 harg5 arg6 harg6 arg7 harg7 hc0 hc1 x0 x1 x2 x3 xs0 = k0_pay2 x0 x1 x3 x2 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero hz]
  simp only [View.readAt_eq_ld, harg2.read_unread, harg3.read_unread, harg4.read_unread, harg5.read_unread, harg7.read_unread, View.ld_unit_zero (S := S1024x1) hz, View.ld_unit_zero (S := S1x2048) hz]

/-- At a row tile's first point the scratch column is zeroed, read back, and ends at the stored column over the zeros. -/
theorem sout_A (c : Dev nD) (i : grid0.Coords) (arg2 : Memref sig .tc .vmem S1024x1 .i32) (harg2 : arg2.IsWhole) (arg3 : Memref sig .tc .vmem S1x2048 .i32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S8x1 .f32) (harg6 : arg6.IsWhole) (arg7 : Memref sig .tc .vmem S1024x1 .f32) (harg7 : arg7.IsWhole) (hc0 : cond0_0 i) (hc1 : ¬cond0_1 i) (x0 : Vec F S1024x1 .i32) (x1 : Vec F S1x2048 .i32) (x2 : Vec F S1024x1 .f32) (x3 : Vec F S1x2048 .f32) :
    sout0_A_0 c i arg2 harg2 arg3 harg3 arg4 harg4 arg5 harg5 arg6 harg6 arg7 harg7 hc0 hc1 x0 x1 x2 x3 = k0_pay2 x0 x1 x3 x2 k0_pay1 := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S1024x1) hz, View.readCov_unit_zero (S := S1024x1) _ hz]
  simp only [View.readAt_eq_ld, harg2.read_unread, harg3.read_unread, harg4.read_unread, harg5.read_unread, View.ld_unit_zero (S := S1024x1) hz, View.ld_unit_zero (S := S1x2048) hz]

/-- At a row tile's last point the scratch column ends as at the middle points. -/
theorem sout_C (c : Dev nD) (i : grid0.Coords) (arg2 : Memref sig .tc .vmem S1024x1 .i32) (harg2 : arg2.IsWhole) (arg3 : Memref sig .tc .vmem S1x2048 .i32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S8x1 .f32) (harg6 : arg6.IsWhole) (arg7 : Memref sig .tc .vmem S1024x1 .f32) (harg7 : arg7.IsWhole) (hc0 : ¬cond0_0 i) (hc1 : cond0_1 i) (x0 : Vec F S1024x1 .i32) (x1 : Vec F S1x2048 .i32) (x2 : Vec F S1024x1 .f32) (x3 : Vec F S1x2048 .f32) (xs0 : Vec F S1024x1 .f32) :
    sout0_C_0 c i arg2 harg2 arg3 harg3 arg4 harg4 arg5 harg5 arg6 harg6 arg7 harg7 hc0 hc1 x0 x1 x2 x3 xs0 = k0_pay2 x0 x1 x3 x2 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero hz]
  simp only [View.readAt_eq_ld, harg2.read_unread, harg3.read_unread, harg4.read_unread, harg5.read_unread, harg7.read_unread, View.ld_unit_zero (S := S1024x1) hz, View.ld_unit_zero (S := S1x2048) hz]

/-- At a row tile's last point the output block is computed from the scratch column just stored. -/
theorem out_C (c : Dev nD) (i : grid0.Coords) (arg2 : Memref sig .tc .vmem S1024x1 .i32) (harg2 : arg2.IsWhole) (arg3 : Memref sig .tc .vmem S1x2048 .i32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S8x1 .f32) (harg6 : arg6.IsWhole) (arg7 : Memref sig .tc .vmem S1024x1 .f32) (harg7 : arg7.IsWhole) (hc0 : ¬cond0_0 i) (hc1 : cond0_1 i) (x0 : Vec F S1024x1 .i32) (x1 : Vec F S1x2048 .i32) (x2 : Vec F S1024x1 .f32) (x3 : Vec F S1x2048 .f32) (xs0 : Vec F S1024x1 .f32) :
    out0_C_4 c i arg2 harg2 arg3 harg3 arg4 harg4 arg5 harg5 arg6 harg6 arg7 harg7 hc0 hc1 x0 x1 x2 x3 xs0 = k0_pay3 (k0_pay2 x0 x1 x3 x2 xs0) := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero hz, View.readCov_unit_zero (S := S1024x1) _ hz]
  simp only [View.readAt_eq_ld, harg2.read_unread, harg3.read_unread, harg4.read_unread, harg5.read_unread, harg7.read_unread, View.ld_unit_zero (S := S1024x1) hz, View.ld_unit_zero (S := S1x2048) hz]

end Pieces

section Payloads

/-- A column broadcast along the rows reads, at an index of row `p`, the column at `p`. -/
theorem bcast_col {α : Type} (v : S1024x1.Idx → α) (h : S1024x1.Broadcasts S1024x2048) (j : S1024x2048.Idx)
    (p : Fin 1024) (hp : (j 0).val = p.val) : broadcastTo S1024x2048 v h j = v (ix2 p 0) := by
  refine broadcastTo_apply v h j (ix2 p (0 : Fin 1)) fun ax => ?_
  match ax with
  | ⟨0, _⟩ =>
    show p.val = if (1024 : ℕ) = 1 then 0 else _
    rw [if_neg (by decide)]
    exact hp.symm
  | ⟨1, _⟩ => rfl

/-- A row broadcast along the columns reads, at an index of column `q`, the row at `q`. -/
theorem bcast_row {α : Type} (v : S1x2048.Idx → α) (h : S1x2048.Broadcasts S1024x2048) (j : S1024x2048.Idx)
    (q : Fin 2048) (hq : (j 1).val = q.val) : broadcastTo S1024x2048 v h j = v (ix2 0 q) := by
  refine broadcastTo_apply v h j (ix2 (0 : Fin 1) q) fun ax => ?_
  match ax with
  | ⟨0, _⟩ => rfl
  | ⟨1, _⟩ =>
    show q.val = if (2048 : ℕ) = 1 then 0 else _
    rw [if_neg (by decide)]
    exact hq.symm

/-- What the body adds for row `r` of the row blocks and column `q` of the column blocks. -/
def bterm (x0 : Vec Ideal S1024x1 .i32) (x1 : Vec Ideal S1x2048 .i32) (x3 : Vec Ideal S1x2048 .f32)
    (x2 : Vec Ideal S1024x1 .f32) (r : Fin 1024) (q : Fin 2048) : EReal :=
  Scalar.select (IntOp.cmpi .eq (x0 (ix2 r 0)) (x1 (ix2 0 q))) (max (x3 (ix2 0 q) - x2 (ix2 r 0)) 0) 0

/-- The zero column. -/
theorem pay1_apply (y : S1024x1.Idx) : k0_pay1 (F := Ideal) y = 0 := by
  show Ideal.ofBits .f32 0x00000000#32 = 0
  exact Ideal.ofBits_zero_f32

/-- The stored column at row `r`: what was there plus the row's sum of terms over the column block. -/
theorem pay2_apply (x0 : Vec Ideal S1024x1 .i32) (x1 : Vec Ideal S1x2048 .i32) (x3 : Vec Ideal S1x2048 .f32)
    (x2 : Vec Ideal S1024x1 .f32) (xs : Vec Ideal S1024x1 .f32) (r : Fin 1024) :
    k0_pay2 (F := Ideal) x0 x1 x3 x2 xs (ix2 r 0) = xs (ix2 r 0) + ∑ q : Fin 2048, bterm x0 x1 x3 x2 r q := by
  unfold k0_pay2
  dsimp only
  simp only [shapeCast_self]
  show xs (ix2 r 0) + shapeCast S1024x1 _ shapeCasts_S1024_S1024x1 (ix2 r 0) = _
  refine congrArg (xs (ix2 r 0) + ·) ?_
  refine (shapeCast_apply _ shapeCasts_S1024_S1024x1 (ix2 r (0 : Fin 1)) (ix1 r) ?_).trans ?_
  · rw [Shape.rowMajor_val_two, Shape.rowMajor_val_one]; show r.val = r.val * 1 + 0; omega
  refine (Ideal.multiReduction_add_single _ _ reduces_S1024x2048_S1024 _ _ (ix1 r)).trans ?_
  refine Finset.sum_congr rfl fun q _ => ?_
  show Scalar.select (IntOp.cmpi .eq (broadcastTo S1024x2048 x0 _ _) (broadcastTo S1024x2048 x1 _ _))
    (max (broadcastTo S1024x2048 x3 _ _ - broadcastTo S1024x2048 x2 _ _) (Ideal.ofBits .f32 0x00000000#32))
    (Ideal.ofBits .f32 0x00000000#32) = _
  rw [bcast_col x0 _ _ r rfl, bcast_row x1 _ _ q rfl, bcast_row x3 _ _ q rfl, bcast_col x2 _ _ r rfl,
    Ideal.ofBits_zero_f32]
  rfl

/-- A select on "the coordinate is zero", the coordinate below eight. -/
theorem select_first (k : Fin 8) (A B : EReal) :
    Scalar.select (IntOp.cmpi .eq (BitVec.ofNat 32 k.val) 0#32) A B = if k.val = 0 then A else B := by
  fin_cases k <;> rfl

/-- The output block: the column's sum in its first entry, zeros after it. -/
theorem pay3_apply (v : Vec Ideal S1024x1 .f32) (k : Fin 8) :
    k0_pay3 (F := Ideal) v (ix2 k 0) = if k.val = 0 then ∑ r : Fin 1024, v (ix2 r 0) else 0 := by
  unfold k0_pay3
  dsimp only
  simp only [shapeCast_self]
  refine (select_apply _ _ _ (ix2 k (0 : Fin 1))).trans ?_
  show Scalar.select (IntOp.cmpi .eq (iota .tc S8x1 32 [0] iota_S8x1_d0_w32 (ix2 k 0)) 0#32) _
    (Ideal.ofBits .f32 0x00000000#32) = _
  rw [iota_single_apply, Ideal.ofBits_zero_f32]
  show Scalar.select (IntOp.cmpi .eq (BitVec.ofNat 32 k.val) 0#32) _ 0 = _
  rw [select_first]
  refine if_congr Iff.rfl ?_ rfl
  refine (broadcastTo_apply _ broadcasts_S1x1_S8x1 (ix2 k (0 : Fin 1)) (ix2 (0 : Fin 1) (0 : Fin 1)) fun ax => ?_).trans ?_
  · match ax with
    | ⟨0, _⟩ => rfl
    | ⟨1, _⟩ => rfl
  refine (shapeCast_a_1a_apply _ shapeCasts_S1_S1x1 (0 : Fin 1) (0 : Fin 1)).trans ?_
  refine (Ideal.multiReduction_add_single v _ reduces_S1024x1_S1 _ _ (ix1 (0 : Fin 1))).trans ?_
  refine Finset.sum_congr rfl fun r _ => congrArg v ?_
  funext a
  match a with
  | ⟨0, _⟩ => rfl
  | ⟨1, _⟩ => rfl

end Payloads

section Blocks

variable (m : (ℓ : Loc nD τ sig) → Buf (Elt Ideal) ℓ)

/-- The index maps over the grid: point `t` is row tile `t / 4`, column block `t % 4`. -/
theorem idx_facts : ∀ t : Fin cfg0.N,
    win0_0.index t (0 : Fin 2) = t.val / 4 ∧ win0_0.index t (1 : Fin 2) = 0
    ∧ win0_1.index t (0 : Fin 2) = 0 ∧ win0_1.index t (1 : Fin 2) = t.val % 4
    ∧ win0_2.index t (0 : Fin 2) = t.val / 4 ∧ win0_2.index t (1 : Fin 2) = 0
    ∧ win0_3.index t (0 : Fin 2) = 0 ∧ win0_3.index t (1 : Fin 2) = t.val % 4
    ∧ win0_4.index t (0 : Fin 2) = t.val / 4 ∧ win0_4.index t (1 : Fin 2) = 0 :=
  (by decide +kernel : ∀ t : Fin grid0.N, _)

/-- The row-code block at point `t`, at row `r`: the column of row codes at row `1024 (t / 4) + r`. -/
theorem blk0 (c : Dev nD) (t : Fin cfg0.N) (r : Fin 1024) (i : Fin 8192) (hi : i.val = 1024 * (t.val / 4) + r.val) :
    (iblk m c 0 t : Vec Ideal S1024x1 .i32) (ix2 r 0) = (V m c main_v18 : S8192x1.Idx → BitVec 32) (ix2 i 0) := by
  obtain ⟨e0, e1, -⟩ := idx_facts t
  unfold iblk
  rw [View.read_apply]
  show V m c main_v18 _ = V m c main_v18 _
  congr 1
  funext a; apply Fin.ext
  match a with
  | ⟨0, _⟩ => show win0_0.index t (0 : Fin 2) * 1024 + 1 * r.val = i.val; rw [e0, hi]; omega
  | ⟨1, _⟩ => show win0_0.index t (1 : Fin 2) * 1 + 1 * 0 = 0; rw [e1]

/-- The column-code block at point `t`, at column `q`: the row of column codes at column `2048 (t % 4) + q`. -/
theorem blk1 (c : Dev nD) (t : Fin cfg0.N) (q : Fin 2048) (j : Fin 8192) (hj : j.val = 2048 * (t.val % 4) + q.val) :
    (iblk m c 1 t : Vec Ideal S1x2048 .i32) (ix2 0 q) = (V m c main_v22 : S1x8192.Idx → BitVec 32) (ix2 0 j) := by
  obtain ⟨-, -, e0, e1, -⟩ := idx_facts t
  unfold iblk
  rw [View.read_apply]
  show V m c main_v22 _ = V m c main_v22 _
  congr 1
  funext a; apply Fin.ext
  match a with
  | ⟨0, _⟩ => show win0_1.index t (0 : Fin 2) * 1 + 1 * 0 = 0; rw [e0]
  | ⟨1, _⟩ => show win0_1.index t (1 : Fin 2) * 2048 + 1 * q.val = j.val; rw [e1, hj]; omega

/-- The row-score block at point `t`, at row `r`. -/
theorem blk2 (c : Dev nD) (t : Fin cfg0.N) (r : Fin 1024) (i : Fin 8192) (hi : i.val = 1024 * (t.val / 4) + r.val) :
    (iblk m c 2 t : Vec Ideal S1024x1 .f32) (ix2 r 0) = (V m c main_v25 : S8192x1.Idx → EReal) (ix2 i 0) := by
  obtain ⟨-, -, -, -, e0, e1, -⟩ := idx_facts t
  unfold iblk
  rw [View.read_apply]
  show V m c main_v25 _ = V m c main_v25 _
  congr 1
  funext a; apply Fin.ext
  match a with
  | ⟨0, _⟩ => show win0_2.index t (0 : Fin 2) * 1024 + 1 * r.val = i.val; rw [e0, hi]; omega
  | ⟨1, _⟩ => show win0_2.index t (1 : Fin 2) * 1 + 1 * 0 = 0; rw [e1]

/-- The column-score block at point `t`, at column `q`. -/
theorem blk3 (c : Dev nD) (t : Fin cfg0.N) (q : Fin 2048) (j : Fin 8192) (hj : j.val = 2048 * (t.val % 4) + q.val) :
    (iblk m c 3 t : Vec Ideal S1x2048 .f32) (ix2 0 q) = (V m c main_v26 : S1x8192.Idx → EReal) (ix2 0 j) := by
  obtain ⟨-, -, -, -, -, -, e0, e1, -⟩ := idx_facts t
  unfold iblk
  rw [View.read_apply]
  show V m c main_v26 _ = V m c main_v26 _
  congr 1
  funext a; apply Fin.ext
  match a with
  | ⟨0, _⟩ => show win0_3.index t (0 : Fin 2) * 1 + 1 * 0 = 0; rw [e0]
  | ⟨1, _⟩ => show win0_3.index t (1 : Fin 2) * 2048 + 1 * q.val = j.val; rw [e1, hj]; omega

/-- The body's term over the blocks at point `4 a + b` is the specification's term of row tile `a` and column block `b`. -/
theorem term_eq (c : Dev nD) (t : Fin cfg0.N) (a : Fin 8) (b : Fin 4) (ht : t.val = 4 * a.val + b.val)
    (r : Fin 1024) (q : Fin 2048) :
    bterm (iblk m c 0 t) (iblk m c 1 t) (iblk m c 3 t) (iblk m c 2 t) r q
      = Cert.Spec.kterm (V m c main_v18) (V m c main_v22) (V m c main_v25) (V m c main_v26) (Cert.Spec.rowOf a r) (Cert.Spec.colOf b q) := by
  have hr : (Cert.Spec.rowOf a r).val = 1024 * (t.val / 4) + r.val := by
    show 1024 * a.val + r.val = _
    omega
  have hq : (Cert.Spec.colOf b q).val = 2048 * (t.val % 4) + q.val := by
    show 2048 * b.val + q.val = _
    omega
  have h0 := blk0 m c t r _ hr
  have h1 := blk1 m c t q _ hq
  have h2 := blk2 m c t r _ hr
  have h3 := blk3 m c t q _ hq
  unfold bterm Cert.Spec.kterm
  rw [h0, h1, h2, h3]

end Blocks

section Points

variable (m : (ℓ : Loc nD τ sig) → Buf (Elt Ideal) ℓ)

/-- The scratch column after a row tile's first point. -/
theorem scratch_A (c : Dev nD) (t : Fin cfg0.N) (h0 : t.val % 4 = 0) (h1 : ¬t.val % 4 = 3) :
    (outsAt0 m c t.val t.isLt).2 = k0_pay2 (iblk m c 0 t) (iblk m c 1 t) (iblk m c 3 t) (iblk m c 2 t) (k0_pay1 (F := Ideal)) := by
  rw [outsAt0_A m c t h0 h1]
  dsimp only
  exact sout_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)

/-- The scratch column after a middle point of a row tile. -/
theorem scratch_B (c : Dev nD) (t : Fin cfg0.N) (h0 : ¬t.val % 4 = 0) (h1 : ¬t.val % 4 = 3) :
    (outsAt0 m c t.val t.isLt).2 = k0_pay2 (iblk m c 0 t) (iblk m c 1 t) (iblk m c 3 t) (iblk m c 2 t) (outsAt0 m c (t.val - 1) (Nat.lt_of_le_of_lt (Nat.sub_le _ _) t.isLt)).2 := by
  rw [outsAt0_B m c t h0 h1]
  dsimp only
  exact sout_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2

/-- The scratch column after a row tile's last point. -/
theorem scratch_C (c : Dev nD) (t : Fin cfg0.N) (h0 : ¬t.val % 4 = 0) (h1 : t.val % 4 = 3) :
    (outsAt0 m c t.val t.isLt).2 = k0_pay2 (iblk m c 0 t) (iblk m c 1 t) (iblk m c 3 t) (iblk m c 2 t) (outsAt0 m c (t.val - 1) (Nat.lt_of_le_of_lt (Nat.sub_le _ _) t.isLt)).2 := by
  rw [outsAt0_C m c t h0 h1]
  dsimp only
  exact sout_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2

/-- The output block after a row tile's last point, from the scratch column after it. -/
theorem out_of_scratch (c : Dev nD) (t : Fin cfg0.N) (h0 : ¬t.val % 4 = 0) (h1 : t.val % 4 = 3) :
    (outsAt0 m c t.val t.isLt).1 = k0_pay3 (outsAt0 m c t.val t.isLt).2 := by
  rw [outsAt0_C m c t h0 h1]
  dsimp only
  exact (out_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2).trans
    (congrArg k0_pay3 (sout_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2).symm)

/-- One more column block in a row's running sum. -/
theorem rowAcc_succ (RC : Cert.Spec.Col8192.Idx → BitVec 32) (CC : Cert.Spec.Row8192.Idx → BitVec 32)
    (RS : Cert.Spec.Col8192.Idx → EReal) (CS : Cert.Spec.Row8192.Idx → EReal) (i : Fin 8192) (n : ℕ) (h : n + 1 ≤ 4) :
    Cert.Spec.rowAcc RC CC RS CS i (n + 1) h
      = Cert.Spec.rowAcc RC CC RS CS i n (by omega) + ∑ q : Fin 2048, Cert.Spec.kterm RC CC RS CS i (Cert.Spec.colOf ⟨n, by omega⟩ q) := rfl

/-- THE INVARIANT: after column block `b` of row tile `a` the scratch column holds, at row `r`, the row's sum over
    column blocks `0 … b`. -/
theorem scratch_inv (c : Dev nD) (a : Fin 8) (r : Fin 1024) :
    ∀ (b : ℕ) (hb : b < 4) (t : Fin cfg0.N) (ht : t.val = 4 * a.val + b),
      (outsAt0 m c t.val t.isLt).2 (ix2 r 0)
        = Cert.Spec.rowAcc (V m c main_v18) (V m c main_v22) (V m c main_v25) (V m c main_v26) (Cert.Spec.rowOf a r) (b + 1) (by omega)
  | 0, hb, t, ht => by
    have h0 : t.val % 4 = 0 := by omega
    have h1 : ¬t.val % 4 = 3 := by omega
    rw [scratch_A m c t h0 h1]
    refine (pay2_apply _ _ _ _ _ r).trans ?_
    rw [pay1_apply, rowAcc_succ]
    exact congrArg₂ (· + ·) rfl (Finset.sum_congr rfl fun q _ => term_eq m c t a ⟨0, hb⟩ ht r q)
  | b + 1, hb, t, ht => by
    have h0 : ¬t.val % 4 = 0 := by omega
    have hN : t.val < 32 := lt_of_lt_of_eq t.isLt (show cfg0.N = 32 from N_0)
    have ht' : t.val - 1 < cfg0.N := Nat.lt_of_le_of_lt (Nat.sub_le _ _) t.isLt
    have ih := scratch_inv c a r b (by omega) ⟨t.val - 1, ht'⟩ (by dsimp only; omega)
    have hstep : k0_pay2 (iblk m c 0 t) (iblk m c 1 t) (iblk m c 3 t) (iblk m c 2 t) (outsAt0 m c (t.val - 1) (Nat.lt_of_le_of_lt (Nat.sub_le _ _) t.isLt)).2 (ix2 r 0)
        = Cert.Spec.rowAcc (V m c main_v18) (V m c main_v22) (V m c main_v25) (V m c main_v26) (Cert.Spec.rowOf a r) (b + 1 + 1) (by omega) := by
      refine (pay2_apply _ _ _ _ _ r).trans ?_
      rw [rowAcc_succ]
      exact congrArg₂ (· + ·) ih (Finset.sum_congr rfl fun q _ => term_eq m c t a ⟨b + 1, hb⟩ ht r q)
    by_cases h1 : t.val % 4 = 3
    · rw [scratch_C m c t h0 h1]; exact hstep
    · rw [scratch_B m c t h0 h1]; exact hstep

/-- After a row tile's last point the output block holds the tile's sum in its first entry and zeros after it. -/
theorem out_blk (c : Dev nD) (t : Fin cfg0.N) (h3 : t.val % 4 = 3) (a : Fin 8) (ha : a.val = t.val / 4) (k : Fin 8) :
    (outsAt0 m c t.val t.isLt).1 (ix2 k 0)
      = if k.val = 0 then Cert.Spec.tileSum (V m c main_v18) (V m c main_v22) (V m c main_v25) (V m c main_v26) a else 0 := by
  rw [out_of_scratch m c t (by omega) h3]
  refine (pay3_apply _ k).trans ?_
  refine if_congr Iff.rfl ?_ rfl
  unfold Cert.Spec.tileSum
  exact Finset.sum_congr rfl fun r _ => scratch_inv m c a r 3 (by omega) t (by omega)

end Points

section Array

variable (m : (ℓ : Loc nD τ sig) → Buf (Elt Ideal) ℓ)

/-- The output block after a row tile's last point, at any index of it. -/
theorem out_blk_idx (c : Dev nD) (t : Fin cfg0.N) (h3 : t.val % 4 = 3) (a : Fin 8) (ha : a.val = t.val / 4) (y : S8x1.Idx) :
    (outsAt0 m c t.val t.isLt).1 y = if (y 0).val = 0 then Cert.Spec.tileSum (V m c main_v18) (V m c main_v22) (V m c main_v25) (V m c main_v26) a else 0 := by
  obtain ⟨k, u, rfl⟩ : ∃ (k : Fin 8) (u : Fin 1), y = ix2 k u := ⟨y 0, y 1, eq_ix2 y⟩
  obtain rfl : u = 0 := Subsingleton.elim _ _
  exact out_blk m c t h3 a ha k

/-- What a row tile's last point writes back is its block of the output array. -/
theorem flushed_eq (c : Dev nD) (t : Fin cfg0.N) (hf : (cfg0.win 4).flush t = true) :
    (dats m 0 c).flushed 4 t
      = ((cfg0.win 4).blk t).view.read (Elt Ideal) (Cert.Spec.outArr (V m c main_v18) (V m c main_v22) (V m c main_v25) (V m c main_v26)) := by
  have h3 : t.val % 4 = 3 := (flush0_4 t).mp hf
  have hN : t.val < 32 := lt_of_lt_of_eq t.isLt (show cfg0.N = 32 from N_0)
  obtain ⟨-, -, -, -, -, -, -, -, e0, e1⟩ := idx_facts t
  show (cfg0.win 4).cut (grid0.coords t) ((dats m 0 c).after 4 t) = _
  rw [after0_4]
  funext j
  have hj0 : (j 0).val < 8 := (j 0).isLt
  have hj1 : (j 1).val < 1 := (j 1).isLt
  have hemb : ((cfg0.win 4).blk t).view.emb j
      = (ix2 (⟨8 * (t.val / 4) + (j 0).val, by omega⟩ : Fin 64) (0 : Fin 1) : S64x1.Idx) := by
    funext a; apply Fin.ext
    match a with
    | ⟨0, _⟩ => show win0_4.index t (0 : Fin 2) * 8 + 1 * (j 0).val = 8 * (t.val / 4) + (j 0).val; rw [e0]; omega
    | ⟨1, _⟩ => show win0_4.index t (1 : Fin 2) * 1 + 1 * (j 1).val = 0; rw [e1]; omega
  show (outsAt0 m c t.val t.isLt).1 ((cfg0.win 4).xinj (grid0.coords t) j)
    = Cert.Spec.outArr (V m c main_v18) (V m c main_v22) (V m c main_v25) (V m c main_v26) (((cfg0.win 4).blk t).view.emb j)
  rw [hemb]
  refine (out_blk_idx m c t h3 ⟨t.val / 4, by omega⟩ rfl _).trans ?_
  show (if (j 0).val = 0 then _ else 0)
    = if (8 * (t.val / 4) + (j 0).val) % 8 = 0 then
        Cert.Spec.tileSum (V m c main_v18) (V m c main_v22) (V m c main_v25) (V m c main_v26) ⟨(8 * (t.val / 4) + (j 0).val) / 8, _⟩
      else 0
  by_cases hj : (j 0).val = 0
  · rw [if_pos hj, if_pos (by omega)]
    exact congrArg (Cert.Spec.tileSum (V m c main_v18) (V m c main_v22) (V m c main_v25) (V m c main_v26))
      (Fin.ext (by show t.val / 4 = (8 * (t.val / 4) + (j 0).val) / 8; omega))
  · rw [if_neg hj, if_neg (by omega)]

/-- Row `y` of the output array lies in the block of point `4 (y / 8) + 3`, a row tile's last. -/
theorem covered (i : S64x1.Idx) :
    ∃ t : Fin cfg0.N, (cfg0.win 4).flush t = true ∧ i ∈ ((cfg0.win 4).blk t).view.set := by
  have hi0 : (i 0).val < 64 := (i 0).isLt
  have hi1 : (i 1).val < 1 := (i 1).isLt
  have ht : 4 * ((i 0).val / 8) + 3 < cfg0.N := by rw [show cfg0.N = 32 from N_0]; omega
  obtain ⟨-, -, -, -, -, -, -, -, e0, e1⟩ := idx_facts ⟨4 * ((i 0).val / 8) + 3, ht⟩
  refine ⟨⟨4 * ((i 0).val / 8) + 3, ht⟩, (flush0_4 _).mpr (by show (4 * ((i 0).val / 8) + 3) % 4 = 3; omega), ?_⟩
  show i ∈ ((View.whole main_v27).slice (win0_4.rect ⟨4 * ((i 0).val / 8) + 3, ht⟩)).set
  rw [View.set_slice_whole, Rect.mem_set_unit]
  intro a
  match a with
  | ⟨0, _⟩ =>
    show win0_4.index ⟨4 * ((i 0).val / 8) + 3, ht⟩ (0 : Fin 2) * 8 ≤ (i 0).val
      ∧ (i 0).val < win0_4.index ⟨4 * ((i 0).val / 8) + 3, ht⟩ (0 : Fin 2) * 8 + 8
    rw [e0]
    show (4 * ((i 0).val / 8) + 3) / 4 * 8 ≤ (i 0).val ∧ (i 0).val < (4 * ((i 0).val / 8) + 3) / 4 * 8 + 8
    omega
  | ⟨1, _⟩ =>
    show win0_4.index ⟨4 * ((i 0).val / 8) + 3, ht⟩ (1 : Fin 2) * 1 ≤ (i 1).val
      ∧ (i 1).val < win0_4.index ⟨4 * ((i 0).val / 8) + 3, ht⟩ (1 : Fin 2) * 1 + 1
    rw [e1]
    omega

/-- The output array after the run: per row tile its sum, then seven zeros. -/
theorem out_array (c : Dev nD) :
    ((dats m 0 c).arrAt 4 cfg0.N : S64x1.Idx → EReal)
      = Cert.Spec.outArr (V m c main_v18) (V m c main_v22) (V m c main_v25) (V m c main_v26) :=
  (dats m 0 c).arrAt_eq_of_cover 4 (Cert.Spec.outArr (V m c main_v18) (V m c main_v22) (V m c main_v25) (V m c main_v26))
    (flushed_eq m c) covered

end Array

end Cert.KernelIdeal.Region

end
-- ==== Proof.Algebra.lean ====
/-
  The laws that join the kernel's quantities to the loss: the kernel's per-pair term is the
  reference's, the output array's entries add up to the double sum over all pairs, and the two
  ways of testing "no valid pair" agree.
-/
import proofs.«422864_j23493471109250_3_alg».proof.Proof.Spec

noncomputable section

namespace Cert.Spec

open Idealize.ShloMosaic Idealize.ShloMosaic.ValueIdx

/-- A select on the equality bit of two words is the `if` on their equality. -/
private theorem select_cmpi_eq {α : Type} {w : Nat} (a b : BitVec w) (x y : α) :
    Scalar.select (IntOp.cmpi .eq a b) x y = if a = b then x else y := by
  unfold Scalar.select IntOp.cmpi
  by_cases h : a = b
  · subst h; simp
  · have hb : (a == b) = false := by simpa using h
    simp [hb, h]

/-- For real numbers `b - (a - 1) = 1 - (a - b)`, so the two hinges agree. -/
private theorem hinge_real (a b : ℝ) :
    max ((b : EReal) - ((a : EReal) - 1)) 0 = max (1 - ((a : EReal) - (b : EReal))) 0 := by
  have h1 : (1 : EReal) = ((1 : ℝ) : EReal) := EReal.coe_one.symm
  rw [h1, ← EReal.coe_sub, ← EReal.coe_sub, ← EReal.coe_sub, ← EReal.coe_sub]
  congr 2
  ring

/-- On finite scores and non-negative ids the kernel's term for a pair is the hinge on the valid pairs and zero elsewhere:
    the codes agree exactly on the valid pairs (minus one and minus two are no id and differ), and
    `s j - (s i - 1) = 1 - (s i - s j)` for real numbers. -/
theorem kterm_eq (s : Vec8192.Idx → EReal) (l p : Vec8192.Idx → BitVec 32)
    (hfin : ∀ i, ∃ r : ℝ, s i = (r : EReal)) (hp : ∀ i, 0 ≤ (p i).toInt) (i j : Fin 8192) :
    kterm (rowCode l p) (colCode l p) (rowScore s) (colScore s) i j = if valid l p i j then hinge s i j else 0 := by
  have hi : colRow (ix2 i (0 : Fin 1)) = i := Fin.ext rfl
  have hj : rowCol (ix2 (0 : Fin 1) j) = j := Fin.ext rfl
  unfold kterm rowCode colCode rowScore colScore hinge
  rw [hi, hj]
  simp only [select_cmpi_eq]
  obtain ⟨a, ha⟩ := hfin (ix1 i)
  obtain ⟨b, hb⟩ := hfin (ix1 j)
  have hpi := hp (ix1 i)
  have hpj := hp (ix1 j)
  have m1 : (4294967295#32 : BitVec 32).toInt = -1 := by decide
  have m2 : (4294967294#32 : BitVec 32).toInt = -2 := by decide
  have hne1 : ∀ x : BitVec 32, 0 ≤ x.toInt → x ≠ 4294967295#32 := by
    intro x hx h; rw [h, m1] at hx; omega
  have hne2 : ∀ x : BitVec 32, 0 ≤ x.toInt → x ≠ 4294967294#32 := by
    intro x hx h; rw [h, m2] at hx; omega
  have hne12 : (4294967295#32 : BitVec 32) ≠ 4294967294#32 := by decide
  by_cases hl1 : l (ix1 i) = 1#32
  · by_cases hl0 : l (ix1 j) = 0#32
    · rw [if_pos hl1, if_pos hl0]
      by_cases hpp : p (ix1 i) = p (ix1 j)
      · rw [if_pos hpp, if_pos (show valid l p i j from ⟨hpp, hl1, hl0⟩), ha, hb]
        exact hinge_real a b
      · rw [if_neg hpp, if_neg (fun h : valid l p i j => hpp h.1)]
    · rw [if_pos hl1, if_neg hl0, if_neg (hne2 _ hpi), if_neg (fun h : valid l p i j => hl0 h.2.2)]
  · by_cases hl0 : l (ix1 j) = 0#32
    · rw [if_neg hl1, if_pos hl0, if_neg (fun h => hne1 _ hpj h.symm), if_neg (fun h : valid l p i j => hl1 h.2.1)]
    · rw [if_neg hl1, if_neg hl0, if_neg hne12, if_neg (fun h : valid l p i j => hl1 h.2.1)]

/-- A sum over the columns, block by block, is the sum over all columns:
    `(b, q) ↦ 2048 b + q` is a bijection from the pairs onto the columns. -/
private theorem sum_colOf (f : Fin 8192 → EReal) :
    ∑ b : Fin 4, ∑ q : Fin 2048, f (colOf b q) = ∑ j : Fin 8192, f j := by
  rw [← Fintype.sum_prod_type']
  refine Fintype.sum_equiv (finProdFinEquiv : Fin 4 × Fin 2048 ≃ Fin 8192) _ _ ?_
  rintro ⟨b, q⟩
  congr 1
  apply Fin.ext
  show 2048 * b.val + q.val = q.val + 2048 * b.val
  omega

/-- A sum over the rows, tile by tile, is the sum over all rows:
    `(t, r) ↦ 1024 t + r` is a bijection from the pairs onto the rows. -/
private theorem sum_rowOf (f : Fin 8192 → EReal) :
    ∑ t : Fin 8, ∑ r : Fin 1024, f (rowOf t r) = ∑ i : Fin 8192, f i := by
  rw [← Fintype.sum_prod_type']
  refine Fintype.sum_equiv (finProdFinEquiv : Fin 8 × Fin 1024 ≃ Fin 8192) _ _ ?_
  rintro ⟨t, r⟩
  congr 1
  apply Fin.ext
  show 1024 * t.val + r.val = r.val + 1024 * t.val
  omega

/-- A sum over 64 entries that vanish off the multiples of eight is the sum over the eight multiples. -/
private theorem sum_every_eighth (g : Fin 8 → EReal) (G : Fin 64 → EReal)
    (hG : ∀ (t u : Fin 8) (a : Fin 64), a.val = u.val + 8 * t.val → G a = if u.val = 0 then g t else 0) :
    ∑ a : Fin 64, G a = ∑ t : Fin 8, g t := by
  rw [← Equiv.sum_comp (finProdFinEquiv : Fin 8 × Fin 8 ≃ Fin 64) G, Fintype.sum_prod_type]
  refine Finset.sum_congr rfl fun t _ => ?_
  have : ∀ u : Fin 8, G ((finProdFinEquiv : Fin 8 × Fin 8 ≃ Fin 64) (t, u)) = if u = 0 then g t else 0 := by
    intro u
    rw [hG t u _ rfl]
    by_cases hu : u = 0
    · subst hu; simp
    · have : u.val ≠ 0 := fun h => hu (Fin.ext h)
      simp [hu, this]
  simp only [this]
  rw [Finset.sum_ite_eq' Finset.univ (0 : Fin 8) (fun _ => g t)]
  simp

section Tiles

variable (RC : Col8192.Idx → BitVec 32) (CC : Row8192.Idx → BitVec 32)
  (RS : Col8192.Idx → EReal) (CS : Row8192.Idx → EReal)

/-- A row's sum over the four column blocks is its sum over all columns. -/
private theorem rowAcc_four (i : Fin 8192) (h : 4 ≤ 4) :
    rowAcc RC CC RS CS i 4 h = ∑ j : Fin 8192, kterm RC CC RS CS i j := by
  rw [← sum_colOf (fun j => kterm RC CC RS CS i j), Fin.sum_univ_four]
  simp only [rowAcc, zero_add]
  rfl

/-- A row tile's sum is the sum of its rows' sums over all columns. -/
private theorem tileSum_eq (t : Fin 8) :
    tileSum RC CC RS CS t = ∑ r : Fin 1024, ∑ j : Fin 8192, kterm RC CC RS CS (rowOf t r) j := by
  unfold tileSum
  exact Finset.sum_congr rfl fun r _ => rowAcc_four RC CC RS CS (rowOf t r) (le_refl 4)

end Tiles

/-- The entries of the kernel's output array add up to the sum of its terms over all pairs. -/
theorem sum_outArr (RC : Col8192.Idx → BitVec 32) (CC : Row8192.Idx → BitVec 32) (RS : Col8192.Idx → EReal) (CS : Row8192.Idx → EReal) :
    ∑ y : Out64.Idx, outArr RC CC RS CS y = ∑ i : Fin 8192, ∑ j : Fin 8192, kterm RC CC RS CS i j := by
  rw [sum_idx2]
  simp only [Fin.sum_univ_one]
  rw [sum_every_eighth (tileSum RC CC RS CS)]
  · simp only [tileSum_eq]
    exact sum_rowOf (fun i => ∑ j : Fin 8192, kterm RC CC RS CS i j)
  · intro t u a ha
    unfold outArr
    have hu : u.val < 8 := u.isLt
    have ht : t.val < 8 := t.isLt
    show (if a.val % 8 = 0 then tileSum RC CC RS CS ⟨a.val / 8, _⟩ else 0) = _
    have h1 : a.val % 8 = u.val := by omega
    have h2 : a.val / 8 = t.val := by omega
    by_cases h0 : u.val = 0
    · rw [if_pos (by omega), if_pos h0]
      congr 1
      exact Fin.ext h2
    · rw [if_neg (by omega), if_neg h0]

/-- The kernel's total is the loss sum. -/
theorem kernel_total (s : Vec8192.Idx → EReal) (l p : Vec8192.Idx → BitVec 32)
    (hfin : ∀ i, ∃ r : ℝ, s i = (r : EReal)) (hp : ∀ i, 0 ≤ (p i).toInt) :
    ∑ y : Out64.Idx, outArr (rowCode l p) (colCode l p) (rowScore s) (colScore s) y = lossSum s l p := by
  rw [sum_outArr]
  unfold lossSum
  exact Finset.sum_congr rfl fun i _ => Finset.sum_congr rfl fun j _ => kterm_eq s l p hfin hp i j

/-- Testing the count for zero after reading it as a real number is testing the word for zero. -/
theorem kfinish_eq (total : EReal) (n : BitVec 32) : kfinish total n = finish total n := by
  funext _
  unfold kfinish finish
  have h : Ideal.cmp .oeq (((n.toInt : ℝ)) : EReal) 0 = IntOp.cmpi .eq n 0#32 := by
    unfold Ideal.cmp IntOp.cmpi
    congr 1
    by_cases hn : n = 0#32
    · subst hn; simp
    · have h0 : ¬ (((n.toInt : ℝ)) : EReal) = 0 := by
        intro h0
        apply hn
        have h1 : ((n.toInt : ℤ) : ℝ) = 0 := EReal.coe_eq_zero.mp h0
        have h2 : n.toInt = 0 := Int.cast_eq_zero.mp h1
        exact BitVec.eq_of_toInt_eq (by rw [h2]; rfl)
      have hb : (n == 0#32) = false := by simpa using hn
      rw [hb]
      simp [h0]
  rw [h]

end Cert.Spec

end
-- ==== Proof.KValue.lean ====
/-
  The kernel program's result is the loss.

  The operations after the pallas_call divide the total of the output array by the pair count.
  The output array holds one sum per row tile, which add up to the sum of the kernel's terms over
  all pairs; on real scores and ids in 0..31 each term is the hinge on the valid pairs and zero
  elsewhere, and the per-property count is the number of valid pairs. Hence the result is the
  mean hinge over the valid pairs, zero when there is none.
-/
import proofs.«422864_j23493471109250_3_alg».proof.Proof.Tail
import proofs.«422864_j23493471109250_3_alg».proof.Proof.Prefix
import proofs.«422864_j23493471109250_3_alg».proof.Proof.Region
import proofs.«422864_j23493471109250_3_alg».proof.Proof.Algebra
import proofs.«422864_j23493471109250_3_alg».proof.Proof.Count

noncomputable section

namespace Cert.KernelIdeal.KValue

open Idealize.ShloMosaic Idealize.ShloMosaic.TcCoe Idealize.ShloMosaic.ValueIdx Idealize.SL.Sem Cert.KernelIdeal Cert.KernelIdeal.Gen
open Cert.KernelIdeal.Prefix (sArg lArg pArg)

variable (m : (ℓ : Loc nD τ sig) → Buf (Elt Ideal) ℓ)

/-- On real scores and property ids in 0..31 the program's result is the loss of its arguments. -/
theorem kernel_value (c : Dev nD) (hfin : ∀ i, ∃ r : ℝ, sArg m c i = (r : EReal))
    (hr : ∀ i, 0 ≤ (pArg m c i).toInt ∧ (pArg m c i).toInt < 32) :
    (Pipeline.afterTail₀ cfgs (dats m) 0 (V0 m) [hostOps1, hostOps1_1] c main_v31 : S_.Idx → EReal)
      = Cert.Spec.loss (sArg m c) (lArg m c) (pArg m c) := by
  rw [Tail.tail_value m c _ (Prefix.V_count m c), Region.out_array m c, Prefix.V_rowCode, Prefix.V_colCode,
    Prefix.V_rowScore, Prefix.V_colScore, Cert.Spec.kernel_total _ _ _ hfin (fun i => (hr i).1),
    congrFun (Count.kcountTerm_eq _ _ hr) ix0, Cert.Spec.kfinish_eq]
  rfl

end Cert.KernelIdeal.KValue

end
-- ==== Proof.PreDecode.lean ====
/-
  What the precondition says of the arguments.

  The precondition is the conjunction of two tests over all 8192 entries: the absolute value of
  every score is below plus infinity, and every property id is at least 0 and below 32 as a signed
  integer. Hence every score is a real number, and every property id lies in 0..31.
-/
import proofs.«422864_j23493471109250_3_alg».proof.Pre_finite_inputs
import proofs.«422864_j23493471109250_3_alg».proof.Proof.Gen.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.PreDecode

open Idealize.ShloMosaic Cert.Pre_finite_inputs

/-- A rank-zero array has one index. -/
instance : Subsingleton S_.Idx := ⟨fun a b => funext fun d => d.elim0⟩

/-- An extended real whose absolute value is below plus infinity is a real number. -/
theorem real_of_abs_lt_top (x : EReal) (h : max x (-x) < (⊤ : EReal)) : ∃ r : ℝ, x = (r : EReal) := by
  induction x using EReal.rec with
  | bot => exact absurd h (by simp)
  | coe r => exact ⟨r, rfl⟩
  | top => exact absurd h (by simp)

/-- A truth value as a one-bit word is one exactly when it is true. -/
theorem ofBool_eq_one (b : Bool) : BitVec.ofBool b = 1#1 ↔ b = true := by cases b <;> decide

/-- The word of plus infinity denotes plus infinity. -/
theorem ofBits_inf : Ideal.ofBits .f32 0x7F800000#32 = (⊤ : EReal) := by simp [Ideal.ofBits, Ideal.ieee]

/-- From the precondition: the scores are real numbers and the property ids lie in 0..31. -/
theorem pre_facts (x0 : FVec Ideal S8192 .f32) (x1 x2 : IVec S8192 32)
    (h : fn (F := Ideal) x0 x1 x2 = fun _ => 1#1) :
    (∀ i, ∃ r : ℝ, x0 i = (r : EReal)) ∧ (∀ i, 0 ≤ (x2 i).toInt ∧ (x2 i).toInt < 32) := by
  have h0 := congrFun h ValueIdx.ix0
  dsimp only [fn] at h0
  obtain ⟨ha, hb⟩ := IntOp.andi_eq_one.1 h0
  refine ⟨fun i => ?_, fun i => ?_⟩
  · have hi := Host.reduce_andi_all _ _ _ _ _ ha i
    have hc : Ideal.cmp .olt (max (x0 i) (-(x0 i))) (Ideal.ofBits .f32 0x7F800000#32) = 1#1 := hi
    rw [ofBits_inf] at hc
    have hc' : BitVec.ofBool (decide (max (x0 i) (-(x0 i)) < (⊤ : EReal))) = 1#1 := hc
    exact real_of_abs_lt_top (x0 i) (of_decide_eq_true ((ofBool_eq_one _).1 hc'))
  · have hi := Host.reduce_andi_all _ _ _ _ _ hb i
    obtain ⟨h1, h2⟩ := IntOp.andi_eq_one.1 hi
    have h1' : IntOp.cmpi .sge (x2 i) 0#32 = 1#1 := h1
    have h2' : IntOp.cmpi .slt (x2 i) 32#32 = 1#1 := h2
    have e0 : (0#32 : BitVec 32).toInt = 0 := by decide
    have e32 : (32#32 : BitVec 32).toInt = 32 := by decide
    have := IntOp.cmpi_sge.1 h1'
    have := IntOp.cmpi_slt.1 h2'
    omega

end Cert.PreDecode

end
-- ==== Proof.lean ====
/-
  A pairwise ranking loss, computed by a tiled kernel, against its plain reference.

  For scores s, labels l and property ids p of length 8192 a pair (i, j) is valid when p i = p j,
  l i = 1 and l j = 0; the loss is the mean over the valid pairs of max (1 - (s i - s j)) 0, and zero
  when no pair is valid. The reference forms the 8192 x 8192 mask and hinge matrices and adds them
  up. The kernel encodes the mask in two code vectors (a positive row carries its id, any other
  row minus one; a negative column its id, any other column minus two: the codes agree exactly on
  the valid pairs as long as no id is negative), folds the margin into the row scores
  (s j - (s i - 1) = 1 - (s i - s j) for real numbers), adds the masked hinges tile by tile, and
  counts the valid pairs per property id, which is the number of valid pairs when every id lies in
  0..31. The precondition says exactly what these two steps need: the scores are finite and the
  ids lie in 0..31.

  Both programs run (the kernel's frame is generated; the reference's run is its operations'
  composed term), the kernel's idealization rewrites nothing, and at the ideal instance both end
  with the loss of their common arguments.
-/
import proofs.«422864_j23493471109250_3_alg».proof.Defs
import proofs.«422864_j23493471109250_3_alg».proof.Proof.Gen.Kernel
import proofs.«422864_j23493471109250_3_alg».proof.Proof.Gen.Kernel.Skeleton
import proofs.«422864_j23493471109250_3_alg».proof.Proof.Gen.Kernel.Launch
import proofs.«422864_j23493471109250_3_alg».proof.Proof.Gen.Kernel.Points
import proofs.«422864_j23493471109250_3_alg».proof.Proof.Gen.Kernel.Frame
import proofs.«422864_j23493471109250_3_alg».proof.Proof.Gen.KernelIdeal
import proofs.«422864_j23493471109250_3_alg».proof.Proof.Gen.KernelIdeal.Skeleton
import proofs.«422864_j23493471109250_3_alg».proof.Proof.Gen.KernelIdeal.Launch
import proofs.«422864_j23493471109250_3_alg».proof.Proof.Gen.KernelIdeal.Points
import proofs.«422864_j23493471109250_3_alg».proof.Proof.Gen.KernelIdeal.Frame
import proofs.«422864_j23493471109250_3_alg».proof.Proof.Gen.ReferenceIdeal
import proofs.«422864_j23493471109250_3_alg».proof.Proof.Gen.Pre_finite_inputs
import proofs.«422864_j23493471109250_3_alg».proof.Proof.RunP
import proofs.«422864_j23493471109250_3_alg».proof.Proof.ReadP
import proofs.«422864_j23493471109250_3_alg».proof.Proof.RefSide
import proofs.«422864_j23493471109250_3_alg».proof.Proof.KValue
import proofs.«422864_j23493471109250_3_alg».proof.Proof.PreDecode
import Idealize.ShloMosaic.Adequacy
import Idealize.ShloMosaic.Init

noncomputable section

namespace Cert.Proof

open Idealize.ShloMosaic Idealize.ShloMosaic.TcCoe Idealize.SL.Sem

/-- The kernel as printed runs and leaves its arguments: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments: its run, the result forgotten. -/
theorem frame_ri : Cert.frame_ReferenceIdeal := fun m ρ _ =>
  (θ_run Cert.ReferenceIdeal.defs _ _).mono (fun _ h c => (h c).2) (Cert.ReferenceIdeal.ValueP.run (F := Ideal) m ρ)

/-- At the ideal instance both programs end with the loss of the arguments they share. -/
theorem algebraic : Cert.algebraic_KernelIdeal_ReferenceIdeal := by
  intro m ρ m' ρ' hpre hagree
  refine ⟨fun c => Cert.Spec.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun r h c => ?_) (Cert.KernelIdeal.Gen.run_main m ρ)
    obtain ⟨hfin, hr⟩ := Cert.PreDecode.pre_facts _ _ _ (hpre c)
    exact ⟨((h c).2 Cert.KernelIdeal.main_v31 (Pipeline.mem_restRefs_of Cert.KernelIdeal.main_v31 (by decide) (by decide))).trans
        (Cert.KernelIdeal.KValue.kernel_value m c hfin hr),
      ((h c).2 Cert.KernelIdeal.main_arg0 (Pipeline.mem_restRefs_of Cert.KernelIdeal.main_arg0 (by decide) (by decide))).trans
        (Cert.KernelIdeal.Gen.W_main_arg0 m (Cert.KernelIdeal.Gen.dats m) c),
      ((h c).2 Cert.KernelIdeal.main_arg1 (Pipeline.mem_restRefs_of Cert.KernelIdeal.main_arg1 (by decide) (by decide))).trans
        (Cert.KernelIdeal.Gen.W_main_arg1 m (Cert.KernelIdeal.Gen.dats m) c),
      ((h c).2 Cert.KernelIdeal.main_arg2 (Pipeline.mem_restRefs_of Cert.KernelIdeal.main_arg2 (by decide) (by decide))).trans
        (Cert.KernelIdeal.Gen.W_main_arg2 m (Cert.KernelIdeal.Gen.dats m) c)⟩
  · refine (θ_run Cert.ReferenceIdeal.defs _ _).mono (fun r h c => ⟨?_, (h c).2⟩)
      (Cert.ReferenceIdeal.ValueP.run (F := Ideal) m' ρ')
    rw [(h c).1, Cert.ReferenceIdeal.ReadP.val_main_v31_eq, Cert.ReferenceIdeal.RefValue.ref_value,
      (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
